-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16777216 : Shape := ⟨1, ![16777216]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16777216 : S_.BroadcastsInDim S16777216 (![] : Fin 0 → Fin S16777216.rank)
  reducesTo_S16777216_S_d0 : S16777216.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4096x4096 .f32) (main_arg1 : FVec F S4096x4096 .f32) (main_arg2 : FVec F S4096x4096 .f32) (main_arg3 : FVec F S16777216 .f32) (main_arg4 : FVec F S4096 .f32) (main_arg5 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S16777216 .f32 := Host.absf main_arg3
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_arg4 main_arg5 main_v13 main_v16
-- ==== Kernel.lean ====
abbrev S4096x4096 : Shape := ⟨2, ![4096, 4096]⟩
abbrev S16777216 : Shape := ⟨1, ![16777216]⟩
abbrev S4096 : Shape := ⟨1, ![4096]⟩
abbrev S1x4096 : Shape := ⟨2, ![1, 4096]⟩
abbrev S_ : Shape := ⟨0, ![]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 62
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S16777216, .f32⟩
  | .hbm, ⟨4, _⟩ => ⟨S4096, .f32⟩
  | .hbm, ⟨5, _⟩ => ⟨S4096, .f32⟩
  | .hbm, ⟨6, _⟩ => ⟨S4096x4096, .f32⟩
  | .hbm, ⟨7, _⟩ => ⟨S1x4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .i1⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S1x4096, .f32⟩
  | .hbm, ⟨23, _⟩ => ⟨S4096x4096, .bf16⟩
  | .hbm, ⟨24, _⟩ => ⟨S4096x4096, .f32⟩
  | .hbm, ⟨25, _⟩ => ⟨S4096x4096, .bf16⟩
  | .hbm, ⟨26, _⟩ => ⟨S4096x4096, .bf16⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S16777216, .f32⟩
  | .hbm, ⟨31, _⟩ => ⟨S16777216, .f32⟩
  | .hbm, ⟨32, _⟩ => ⟨S16777216, .f32⟩
  | .hbm, ⟨33, _⟩ => ⟨S16777216, .f32⟩
  | .hbm, ⟨34, _⟩ => ⟨S16777216, .i1⟩
  | .hbm, ⟨35, _⟩ => ⟨S16777216, .f32⟩
  | .hbm, ⟨36, _⟩ => ⟨S16777216, .f32⟩
  | .hbm, ⟨37, _⟩ => ⟨S16777216, .f32⟩
  | .hbm, ⟨38, _⟩ => ⟨S16777216, .f32⟩
  | .hbm, ⟨39, _⟩ => ⟨S16777216, .f32⟩
  | .hbm, ⟨40, _⟩ => ⟨S16777216, .f32⟩
  | .hbm, ⟨41, _⟩ => ⟨S16777216, .f32⟩
  | .hbm, ⟨42, _⟩ => ⟨S16777216, .f32⟩
  | .hbm, ⟨43, _⟩ => ⟨S16777216, .f32⟩
  | .hbm, ⟨44, _⟩ => ⟨S_, .f32⟩
  | .hbm, ⟨45, _⟩ => ⟨S16777216, .f32⟩
  | .hbm, ⟨46, _⟩ => ⟨S16777216, .f32⟩
  | .hbm, ⟨47, _⟩ => ⟨S4096x4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16777216, .f32⟩
  | .hbm, ⟨52, _⟩ => ⟨S16777216, .f32⟩
  | .hbm, ⟨53, _⟩ => ⟨S16777216, .f32⟩
  | .hbm, ⟨54, _⟩ => ⟨S16777216, .f32⟩
  | .hbm, ⟨55, _⟩ => ⟨S16777216, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_0 : Ref sig .tc := ⟨.hbm, 48, rfl⟩
abbrev main_v14 : Ref sig .tc := ⟨.hbm, 49, rfl⟩
abbrev main_cst_1 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_2 : Ref sig .tc := ⟨.hbm, 56, rfl⟩
abbrev main_v20 : Ref sig .tc := ⟨.hbm, 57, rfl⟩
abbrev main_cst_3 : Ref sig .tc := ⟨.hbm, 58, rfl⟩
abbrev main_v21 : Ref sig .tc := ⟨.hbm, 59, rfl⟩
abbrev main_cst_4 : Ref sig .tc := ⟨.hbm, 60, rfl⟩
abbrev main_v22 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v38 : BitVec 1 := Scalar.cmpi .eq arg2 c7_i32
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S16777216_S4096x4096 : S16777216.ShapeCasts S4096x4096
  shapeCasts_S4096_S1x4096 : S4096.ShapeCasts S1x4096
  bcast_S_S4096 : S_.BroadcastsInDim S4096 (![] : Fin 0 → Fin S4096.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bcast_S_S16777216 : S_.BroadcastsInDim S16777216 (![] : Fin 0 → Fin S16777216.rank)
  reducesTo_S4096x4096_S_d0_1 : S4096x4096.ReducesTo [0, 1] S_
  h_S_ : 0 < S_.numel
  reducesTo_S16777216_S_d0 : S16777216.ReducesTo [0] S_
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .bf16 = 32 ∨ (Rect.block (s := S4096x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .bf16 = 32 ∨ (Rect.block (s := S4096x4096) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x4096.size a
  hwx0_6 : ∀ i : grid0.Coords, EltTy.bits .f32 = 32 ∨ (Rect.block (s := S4096x4096) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S4096x4096.size a
  hwx0_7 : ∀ i : grid0.Coords, EltTy.bits .f32 = 32 ∨ (Rect.block (s := S4096x4096) S1024x1024.size (cc0_transform_7 i) (hinb0_7 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S1024x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x4096 : Shape := ⟨2, ![4096, 4096]⟩
abbrev S16777216 : Shape := ⟨1, ![16777216]⟩
abbrev S4096 : Shape := ⟨1, ![4096]⟩
abbrev S1x4096 : Shape := ⟨2, ![1, 4096]⟩
abbrev S_ : Shape := ⟨0, ![]⟩

abbrev nBuf : Space → Nat
  | .hbm => 77
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S16777216, .f32⟩
  | .hbm, ⟨4, _⟩ => ⟨S4096, .f32⟩
  | .hbm, ⟨5, _⟩ => ⟨S4096, .f32⟩
  | .hbm, ⟨6, _⟩ => ⟨S4096x4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S16777216, .f32⟩
  | .hbm, ⟨12, _⟩ => ⟨S16777216, .f32⟩
  | .hbm, ⟨13, _⟩ => ⟨S16777216, .f32⟩
  | .hbm, ⟨14, _⟩ => ⟨S16777216, .f32⟩
  | .hbm, ⟨15, _⟩ => ⟨S16777216, .i1⟩
  | .hbm, ⟨16, _⟩ => ⟨S16777216, .f32⟩
  | .hbm, ⟨17, _⟩ => ⟨S16777216, .f32⟩
  | .hbm, ⟨18, _⟩ => ⟨S16777216, .f32⟩
  | .hbm, ⟨19, _⟩ => ⟨S16777216, .f32⟩
  | .hbm, ⟨20, _⟩ => ⟨S16777216, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .i1⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S1x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S16777216, .f32⟩
  | .hbm, ⟨46, _⟩ => ⟨S16777216, .f32⟩
  | .hbm, ⟨47, _⟩ => ⟨S16777216, .f32⟩
  | .hbm, ⟨48, _⟩ => ⟨S16777216, .f32⟩
  | .hbm, ⟨49, _⟩ => ⟨S16777216, .i1⟩
  | .hbm, ⟨50, _⟩ => ⟨S16777216, .f32⟩
  | .hbm, ⟨51, _⟩ => ⟨S16777216, .f32⟩
  | .hbm, ⟨52, _⟩ => ⟨S16777216, .f32⟩
  | .hbm, ⟨53, _⟩ => ⟨S16777216, .f32⟩
  | .hbm, ⟨54, _⟩ => ⟨S16777216, .f32⟩
  | .hbm, ⟨55, _⟩ => ⟨S16777216, .f32⟩
  | .hbm, ⟨56, _⟩ => ⟨S16777216, .f32⟩
  | .hbm, ⟨57, _⟩ => ⟨S16777216, .f32⟩
  | .hbm, ⟨58, _⟩ => ⟨S16777216, .f32⟩
  | .hbm, ⟨59, _⟩ => ⟨S_, .f32⟩
  | .hbm, ⟨60, _⟩ => ⟨S16777216, .f32⟩
  | .hbm, ⟨61, _⟩ => ⟨S16777216, .f32⟩
  | .hbm, ⟨62, _⟩ => ⟨S4096x4096, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S16777216, .f32⟩
  | .hbm, ⟨67, _⟩ => ⟨S16777216, .f32⟩
  | .hbm, ⟨68, _⟩ => ⟨S16777216, .f32⟩
  | .hbm, ⟨69, _⟩ => ⟨S16777216, .f32⟩
  | .hbm, ⟨70, _⟩ => ⟨S16777216, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_v12 : Ref sig .tc := ⟨.hbm, 57, rfl⟩
abbrev main_v13 : Ref sig .tc := ⟨.hbm, 58, rfl⟩
abbrev main_cst : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst_0 : Ref sig .tc := ⟨.hbm, 63, rfl⟩
abbrev main_v17 : Ref sig .tc := ⟨.hbm, 64, rfl⟩
abbrev main_cst_1 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_cst_2 : Ref sig .tc := ⟨.hbm, 71, rfl⟩
abbrev main_v23 : Ref sig .tc := ⟨.hbm, 72, rfl⟩
abbrev main_cst_3 : Ref sig .tc := ⟨.hbm, 73, rfl⟩
abbrev main_v24 : Ref sig .tc := ⟨.hbm, 74, rfl⟩
abbrev main_cst_4 : Ref sig .tc := ⟨.hbm, 75, rfl⟩
abbrev main_v25 : Ref sig .tc := ⟨.hbm, 76, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S16777216 : S_.BroadcastsInDim S16777216 (![] : Fin 0 → Fin S16777216.rank)
  shapeCasts_S16777216_S4096x4096 : S16777216.ShapeCasts S4096x4096
  bcast_S_S4096 : S_.BroadcastsInDim S4096 (![] : Fin 0 → Fin S4096.rank)
  reducesTo_S4096x4096_S_d0_1 : S4096x4096.ReducesTo [0, 1] S_
  h_S_ : 0 < S_.numel
  reducesTo_S16777216_S_d0 : S16777216.ReducesTo [0] S_
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
import proofs.«138907_j841813590058_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-! # What each control case of the kernel body leaves, as payload terms

The body runs at every point of the 4 x 4 x 8 grid; its control depends only on the depth
coordinate `k` (the last one). There are three cases:

* case A, `k = 0`: both accumulators are first overwritten with zeros, then the point's two
  partial products are added;
* case B, `0 < k < 7`: the partial products are added to what the point before left;
* case C, `k = 7`: as in B, and then each accumulator, with its bias row added, is stored to
  its output tile.

Accumulator 0 carries the mean product `x · W`, accumulator 1 the variance product
`x² · softplus(ρ)`. Each lemma below says that what a case leaves in an accumulator or an
output tile is ONE payload term over the point's input blocks `x0 … x5` and over `xs0`, `xs1`,
the accumulators' contents on entry. The payloads themselves are left folded: their
arithmetic is read at an index elsewhere.

Every store of the body writes a whole 1024 x 1024 tile at offset `(0, 0)`, and every load
reads a whole buffer at offset `(0, 0)`. So the last store to a buffer decides its contents
(an earlier store to the same buffer is wholly covered by it), a load of a buffer after a
store to it in the same run returns that store's payload, and a load of an untouched buffer
returns the buffer's contents on entry. -/

/-- The offset `(0, 0)` of every load and store of the body is the zero offset. -/
theorem hz : (![0, 0] : Fin 2 → Nat) = fun _ => 0 := funext fun a => by fin_cases a <;> rfl

/-! ## Case A: the first depth step (`k = 0`) -/

/-- Case A, accumulator 0. Two stores: the zero tile `k0_pay4`, then the update. The update
loads the accumulator after the reset, so it sees the zero tile: the accumulator ends as
`0 + x0 · x2`, the update payload at the zero tile. -/
theorem scr0_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : ¬cond0_1 i)
    (x0 : Vec F S1024x512 .bf16) (x1 : Vec F S1024x512 .bf16) (x2 : Vec F S512x1024 .bf16) (x3 : Vec F S512x1024 .f32) (x4 : Vec F S1x1024 .f32) (x5 : Vec F S1x1024 .f32) :
    sout0_A_0 c i arg3 harg3 arg4 harg4 arg5 harg5 arg6 harg6 arg7 harg7 arg8 harg8 arg9 harg9 arg10 harg10 arg11 harg11 arg12 harg12 hc0 hc1 x0 x1 x2 x3 x4 x5 = k0_pay6 k0_pay4 x0 x2 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1024x1024) hz, View.readCov_unit_zero (S := S1024x1024) _ hz]
  simp only [View.readAt_eq_ld, harg3.read_unread, harg5.read_unread, View.ld_unit_zero (S := S1024x512) hz, View.ld_unit_zero (S := S512x1024) hz]

/-- Case A, accumulator 1. Two stores: the zero tile `k0_pay5`, then the update, whose load of
the accumulator sees the zero tile: the accumulator ends as `0 + x1 · softplus(x3)` (the
squaring of the activations is done on the host side, `x1` is already the squared block). -/
theorem scr1_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : ¬cond0_1 i)
    (x0 : Vec F S1024x512 .bf16) (x1 : Vec F S1024x512 .bf16) (x2 : Vec F S512x1024 .bf16) (x3 : Vec F S512x1024 .f32) (x4 : Vec F S1x1024 .f32) (x5 : Vec F S1x1024 .f32) :
    sout0_A_1 c i arg3 harg3 arg4 harg4 arg5 harg5 arg6 harg6 arg7 harg7 arg8 harg8 arg9 harg9 arg10 harg10 arg11 harg11 arg12 harg12 hc0 hc1 x0 x1 x2 x3 x4 x5 = k0_pay1 (k0_pay7 x3 k0_pay5 x1) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1024x1024) hz, View.readCov_unit_zero (S := S1024x1024) _ hz]
  simp only [View.readAt_eq_ld, harg4.read_unread, harg6.read_unread, View.ld_unit_zero (S := S1024x512) hz, View.ld_unit_zero (S := S512x1024) hz]

/-! ## Case B: an inner depth step (`0 < k < 7`) -/

/-- Case B, accumulator 0. One store: the update payload over the accumulator's contents on
entry, `xs0 + x0 · x2`. -/
theorem scr0_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i)
    (x0 : Vec F S1024x512 .bf16) (x1 : Vec F S1024x512 .bf16) (x2 : Vec F S512x1024 .bf16) (x3 : Vec F S512x1024 .f32) (x4 : Vec F S1x1024 .f32) (x5 : Vec F S1x1024 .f32) (xs0 : Vec F S1024x1024 .f32) (xs1 : Vec F S1024x1024 .f32) :
    sout0_B_0 c i arg3 harg3 arg4 harg4 arg5 harg5 arg6 harg6 arg7 harg7 arg8 harg8 arg9 harg9 arg10 harg10 arg11 harg11 arg12 harg12 hc0 hc1 x0 x1 x2 x3 x4 x5 xs0 xs1 = k0_pay6 xs0 x0 x2 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_B
  dsimp only
  sl_unfold_words
  rw [View.canon_unit_zero hz]
  simp only [View.readAt_eq_ld, harg11.read_unread, harg3.read_unread, harg5.read_unread,
    View.ld_unit_zero (S := S1024x1024) hz, View.ld_unit_zero (S := S1024x512) hz, View.ld_unit_zero (S := S512x1024) hz]

/-- Case B, accumulator 1. One store: `xs1 + x1 · softplus(x3)`. -/
theorem scr1_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i)
    (x0 : Vec F S1024x512 .bf16) (x1 : Vec F S1024x512 .bf16) (x2 : Vec F S512x1024 .bf16) (x3 : Vec F S512x1024 .f32) (x4 : Vec F S1x1024 .f32) (x5 : Vec F S1x1024 .f32) (xs0 : Vec F S1024x1024 .f32) (xs1 : Vec F S1024x1024 .f32) :
    sout0_B_1 c i arg3 harg3 arg4 harg4 arg5 harg5 arg6 harg6 arg7 harg7 arg8 harg8 arg9 harg9 arg10 harg10 arg11 harg11 arg12 harg12 hc0 hc1 x0 x1 x2 x3 x4 x5 xs0 xs1 = k0_pay1 (k0_pay7 x3 xs1 x1) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_B
  dsimp only
  sl_unfold_words
  rw [View.canon_unit_zero hz]
  simp only [View.readAt_eq_ld, harg12.read_unread, harg4.read_unread, harg6.read_unread,
    View.ld_unit_zero (S := S1024x1024) hz, View.ld_unit_zero (S := S1024x512) hz, View.ld_unit_zero (S := S512x1024) hz]

/-! ## Case C: the last depth step (`k = 7`) -/

/-- Case C, accumulator 0: updated exactly as in case B. -/
theorem scr0_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i)
    (x0 : Vec F S1024x512 .bf16) (x1 : Vec F S1024x512 .bf16) (x2 : Vec F S512x1024 .bf16) (x3 : Vec F S512x1024 .f32) (x4 : Vec F S1x1024 .f32) (x5 : Vec F S1x1024 .f32) (xs0 : Vec F S1024x1024 .f32) (xs1 : Vec F S1024x1024 .f32) :
    sout0_C_0 c i arg3 harg3 arg4 harg4 arg5 harg5 arg6 harg6 arg7 harg7 arg8 harg8 arg9 harg9 arg10 harg10 arg11 harg11 arg12 harg12 hc0 hc1 x0 x1 x2 x3 x4 x5 xs0 xs1 = k0_pay6 xs0 x0 x2 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C
  dsimp only
  sl_unfold_words
  rw [View.canon_unit_zero hz]
  simp only [View.readAt_eq_ld, harg11.read_unread, harg3.read_unread, harg5.read_unread,
    View.ld_unit_zero (S := S1024x1024) hz, View.ld_unit_zero (S := S1024x512) hz, View.ld_unit_zero (S := S512x1024) hz]

/-- Case C, accumulator 1: updated exactly as in case B. -/
theorem scr1_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i)
    (x0 : Vec F S1024x512 .bf16) (x1 : Vec F S1024x512 .bf16) (x2 : Vec F S512x1024 .bf16) (x3 : Vec F S512x1024 .f32) (x4 : Vec F S1x1024 .f32) (x5 : Vec F S1x1024 .f32) (xs0 : Vec F S1024x1024 .f32) (xs1 : Vec F S1024x1024 .f32) :
    sout0_C_1 c i arg3 harg3 arg4 harg4 arg5 harg5 arg6 harg6 arg7 harg7 arg8 harg8 arg9 harg9 arg10 harg10 arg11 harg11 arg12 harg12 hc0 hc1 x0 x1 x2 x3 x4 x5 xs0 xs1 = k0_pay1 (k0_pay7 x3 xs1 x1) := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C
  dsimp only
  sl_unfold_words
  rw [View.canon_unit_zero hz]
  simp only [View.readAt_eq_ld, harg12.read_unread, harg4.read_unread, harg6.read_unread,
    View.ld_unit_zero (S := S1024x1024) hz, View.ld_unit_zero (S := S1024x512) hz, View.ld_unit_zero (S := S512x1024) hz]

/-- Case C, the mean output tile. One store: the bias row `x4` broadcast down the rows and
added to accumulator 0 AS JUST UPDATED (the load follows the update's store in the same run,
so it returns the update payload, not `xs0`). -/
theorem out6_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i)
    (x0 : Vec F S1024x512 .bf16) (x1 : Vec F S1024x512 .bf16) (x2 : Vec F S512x1024 .bf16) (x3 : Vec F S512x1024 .f32) (x4 : Vec F S1x1024 .f32) (x5 : Vec F S1x1024 .f32) (xs0 : Vec F S1024x1024 .f32) (xs1 : Vec F S1024x1024 .f32) :
    out0_C_6 c i arg3 harg3 arg4 harg4 arg5 harg5 arg6 harg6 arg7 harg7 arg8 harg8 arg9 harg9 arg10 harg10 arg11 harg11 arg12 harg12 hc0 hc1 x0 x1 x2 x3 x4 x5 xs0 xs1 = k0_pay2 (k0_pay6 xs0 x0 x2) x4 := by
  unfold out0_C_6
  rw [View.read_writes_eq_canon _ _ _ (cover0_C_6 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C
  dsimp only
  sl_unfold_words
  rw [View.canon_unit_zero hz]
  simp only [View.readAt_eq_ld, harg11.read_unread, harg3.read_unread, harg5.read_unread,
    harg7.read_unread, View.ld_unit_zero (S := S1024x1024) hz, View.ld_unit_zero (S := S1024x512) hz, View.ld_unit_zero (S := S512x1024) hz, View.ld_unit_zero (S := S1x1024) hz, View.readCov_unit_zero (S := S1024x1024) _ hz]

/-- Case C, the variance output tile. One store: the bias row `x5` broadcast down the rows
and added to accumulator 1 as just updated. -/
theorem out7_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i)
    (x0 : Vec F S1024x512 .bf16) (x1 : Vec F S1024x512 .bf16) (x2 : Vec F S512x1024 .bf16) (x3 : Vec F S512x1024 .f32) (x4 : Vec F S1x1024 .f32) (x5 : Vec F S1x1024 .f32) (xs0 : Vec F S1024x1024 .f32) (xs1 : Vec F S1024x1024 .f32) :
    out0_C_7 c i arg3 harg3 arg4 harg4 arg5 harg5 arg6 harg6 arg7 harg7 arg8 harg8 arg9 harg9 arg10 harg10 arg11 harg11 arg12 harg12 hc0 hc1 x0 x1 x2 x3 x4 x5 xs0 xs1 = k0_pay3 (k0_pay1 (k0_pay7 x3 xs1 x1)) x5 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C
  dsimp only
  sl_unfold_words
  rw [View.canon_unit_zero hz]
  simp only [View.readAt_eq_ld, harg12.read_unread, harg4.read_unread, harg6.read_unread,
    harg8.read_unread, View.ld_unit_zero (S := S1024x1024) hz, View.ld_unit_zero (S := S1024x512) hz, View.ld_unit_zero (S := S512x1024) hz, View.ld_unit_zero (S := S1x1024) hz, View.readCov_unit_zero (S := S1024x1024) _ hz]

end Cert.KernelIdeal.Pieces

end
-- ==== Proof.Accum.lean ====
/-
  The two carried accumulators, point by point.

  After the body at linear grid point `n` the mean accumulator holds `acc0 n` and the variance accumulator
  `acc1 n`. At the first point of each run of 8 (depth coordinate 0) both are reset and hold zero plus that point's
  partial product; at every other point they hold what the point before left plus the point's partial product —
  whether or not the point is the run's last. At a run's last point (depth coordinate 7) the two output tiles hold
  the accumulators as just updated, each plus its bias row.
-/
import proofs.«138907_j841813590058_1_alg».proof.Proof.Gen.KernelIdeal.Frame
import proofs.«138907_j841813590058_1_alg».proof.Proof.Pieces

set_option maxRecDepth 16384

noncomputable section

open Idealize.ShloMosaic Idealize.ShloMosaic.TcCoe Idealize.SL.Sem

namespace Cert.KernelIdeal.Accum

open Cert.KernelIdeal Cert.KernelIdeal.Gen

variable {F : FTy → Type} [FloatOps F]
variable (m : (ℓ : Loc nD τ sig) → Buf (Elt F) ℓ) (c : Dev nD)

/-- The input blocks of point `n`, at their literal types: the input means' block and its square's, the weight
    means' block, the weight parameter's block, the two bias rows. -/
abbrev xmu (n : ℕ) (h : n < cfg0.N) : Vec F S1024x512 .bf16 := iblk m c 0 ⟨n, h⟩
abbrev xsq (n : ℕ) (h : n < cfg0.N) : Vec F S1024x512 .bf16 := iblk m c 1 ⟨n, h⟩
abbrev xw (n : ℕ) (h : n < cfg0.N) : Vec F S512x1024 .bf16 := iblk m c 2 ⟨n, h⟩
abbrev xws (n : ℕ) (h : n < cfg0.N) : Vec F S512x1024 .f32 := iblk m c 3 ⟨n, h⟩
abbrev xb (n : ℕ) (h : n < cfg0.N) : Vec F S1x1024 .f32 := iblk m c 4 ⟨n, h⟩
abbrev xbs (n : ℕ) (h : n < cfg0.N) : Vec F S1x1024 .f32 := iblk m c 5 ⟨n, h⟩

/-- What the mean accumulator holds after point `n`, -/
def acc0 (n : ℕ) (h : n < cfg0.N) : Vec F S1024x1024 .f32 := (outsAt0 m c n h).2.2.1
/-- and the variance accumulator. -/
def acc1 (n : ℕ) (h : n < cfg0.N) : Vec F S1024x1024 .f32 := (outsAt0 m c n h).2.2.2

/-- At the first point of a run the mean accumulator is reset: zero plus the point's product. -/
theorem acc0_reset (n : ℕ) (h : n < cfg0.N) (h0 : n % 8 = 0) :
    acc0 m c n h = k0_pay6 k0_pay4 (xmu m c n h) (xw m c n h) := by
  have h1 : ¬(⟨n, h⟩ : Fin cfg0.N).val % 8 = 7 := by dsimp only; omega
  unfold acc0
  rw [outsAt0_A m c ⟨n, h⟩ h0 h1]
  dsimp only
  exact Pieces.scr0_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) scM0_1 (Memref.isWhole_whole _) ((hcond0_0 ⟨n, h⟩).mpr h0) (fun h' => h1 ((hcond0_1 ⟨n, h⟩).mp h')) (iblk m c 0 ⟨n, h⟩) (iblk m c 1 ⟨n, h⟩) (iblk m c 2 ⟨n, h⟩) (iblk m c 3 ⟨n, h⟩) (iblk m c 4 ⟨n, h⟩) (iblk m c 5 ⟨n, h⟩)

theorem acc1_reset (n : ℕ) (h : n < cfg0.N) (h0 : n % 8 = 0) :
    acc1 m c n h = k0_pay1 (k0_pay7 (xws m c n h) k0_pay5 (xsq m c n h)) := by
  have h1 : ¬(⟨n, h⟩ : Fin cfg0.N).val % 8 = 7 := by dsimp only; omega
  unfold acc1
  rw [outsAt0_A m c ⟨n, h⟩ h0 h1]
  dsimp only
  exact Pieces.scr1_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) scM0_1 (Memref.isWhole_whole _) ((hcond0_0 ⟨n, h⟩).mpr h0) (fun h' => h1 ((hcond0_1 ⟨n, h⟩).mp h')) (iblk m c 0 ⟨n, h⟩) (iblk m c 1 ⟨n, h⟩) (iblk m c 2 ⟨n, h⟩) (iblk m c 3 ⟨n, h⟩) (iblk m c 4 ⟨n, h⟩) (iblk m c 5 ⟨n, h⟩)

/-- At every other point it is what the point before left, plus the point's product. -/
theorem acc0_step (n : ℕ) (h : n + 1 < cfg0.N) (hne : ¬(n + 1) % 8 = 0) :
    acc0 m c (n + 1) h = k0_pay6 (acc0 m c n (Nat.lt_of_succ_lt h)) (xmu m c (n + 1) h) (xw m c (n + 1) h) := by
  unfold acc0
  by_cases h7 : (n + 1) % 8 = 7
  · rw [outsAt0_C m c ⟨n + 1, h⟩ hne h7]
    dsimp only
    exact Pieces.scr0_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (fun h' => hne ((hcond0_0 ⟨n + 1, h⟩).mp h')) ((hcond0_1 ⟨n + 1, h⟩).mpr h7) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.2.1 (outsAt0 m c n (Nat.lt_of_succ_lt h)).2.2.2
  · rw [outsAt0_B m c ⟨n + 1, h⟩ hne h7]
    dsimp only
    exact Pieces.scr0_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (fun h' => hne ((hcond0_0 ⟨n + 1, h⟩).mp h')) (fun h' => h7 ((hcond0_1 ⟨n + 1, h⟩).mp h')) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.2.1 (outsAt0 m c n (Nat.lt_of_succ_lt h)).2.2.2

theorem acc1_step (n : ℕ) (h : n + 1 < cfg0.N) (hne : ¬(n + 1) % 8 = 0) :
    acc1 m c (n + 1) h = k0_pay1 (k0_pay7 (xws m c (n + 1) h) (acc1 m c n (Nat.lt_of_succ_lt h)) (xsq m c (n + 1) h)) := by
  unfold acc1
  by_cases h7 : (n + 1) % 8 = 7
  · rw [outsAt0_C m c ⟨n + 1, h⟩ hne h7]
    dsimp only
    exact Pieces.scr1_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (fun h' => hne ((hcond0_0 ⟨n + 1, h⟩).mp h')) ((hcond0_1 ⟨n + 1, h⟩).mpr h7) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.2.1 (outsAt0 m c n (Nat.lt_of_succ_lt h)).2.2.2
  · rw [outsAt0_B m c ⟨n + 1, h⟩ hne h7]
    dsimp only
    exact Pieces.scr1_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (fun h' => hne ((hcond0_0 ⟨n + 1, h⟩).mp h')) (fun h' => h7 ((hcond0_1 ⟨n + 1, h⟩).mp h')) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.2.1 (outsAt0 m c n (Nat.lt_of_succ_lt h)).2.2.2

/-- At a run's last point the mean output tile holds the mean accumulator as just updated, plus its bias row. -/
theorem out6_last (t : Fin cfg0.N) (h7 : t.val % 8 = 7) :
    (outsAt0 m c t.val t.isLt).1 = k0_pay2 (acc0 m c t.val t.isLt) (xb m c t.val t.isLt) := by
  have h0 : ¬t.val % 8 = 0 := by omega
  unfold acc0
  rw [outsAt0_C m c t h0 h7]
  dsimp only
  rw [Pieces.scr0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => h0 ((hcond0_0 t).mp h')) ((hcond0_1 t).mpr h7) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2]
  exact Pieces.out6_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => h0 ((hcond0_0 t).mp h')) ((hcond0_1 t).mpr h7) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2

/-- And the variance output tile the variance accumulator as just updated, plus its bias row. -/
theorem out7_last (t : Fin cfg0.N) (h7 : t.val % 8 = 7) :
    (outsAt0 m c t.val t.isLt).2.1 = k0_pay3 (acc1 m c t.val t.isLt) (xbs m c t.val t.isLt) := by
  have h0 : ¬t.val % 8 = 0 := by omega
  unfold acc1
  rw [outsAt0_C m c t h0 h7]
  dsimp only
  rw [Pieces.scr1_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => h0 ((hcond0_0 t).mp h')) ((hcond0_1 t).mpr h7) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2]
  exact Pieces.out7_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => h0 ((hcond0_0 t).mp h')) ((hcond0_1 t).mpr h7) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Accum

end
-- ==== Proof.Spec.lean ====
/-
  The mathematics of the layer, with no program in sight: what the three results are as functions of the
  argument arrays over the extended reals, and the one regrouping law the blocked accumulation needs.

  * softplus on the extended reals, `sp x = max x 0 + log1p (exp (-|x - 0|))` — the form both programs spell,
    their `x ≠ x` guard never firing since an extended real equals itself;
  * the mean result  `meanOut mu w b (r, o) = (∑ k, mu (r, k) · w (k, o)) + b o`;
  * the variance result `varOut mu ws bs (r, o) = (∑ k, (mu (r, k) · mu (r, k)) · sp (ws (4096 k + o))) + sp (bs o)`,
    the flat parameter vector read row-major as a 4096 × 4096 matrix;
  * a sum over 4096 terms is the sum over 8 consecutive runs of 512 (`sum_runs`): addition on the extended
    reals is commutative and associative, so no finiteness is asked.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.BayesLin

/-- The shapes of the arguments and results. -/
abbrev SMat : Shape := ⟨2, ![4096, 4096]⟩
abbrev SVec : Shape := ⟨1, ![4096]⟩
abbrev SFlat : Shape := ⟨1, ![16777216]⟩

/-- softplus on the extended reals, in the form both programs compute it. -/
def sp (x : EReal) : EReal := max x 0 + Ideal.log1p (Ideal.exp (-(max (x - 0) (-(x - 0)))))

/-- Row-major position of entry `(k, o)` of a 4096 × 4096 matrix in the flat vector. -/
def flat (k o : Fin 4096) : Fin 16777216 := ⟨4096 * k.val + o.val, by have := k.isLt; have := o.isLt; omega⟩

/-- The mean result: the product of the input means with the weight means, plus the bias mean. -/
def meanOut (mu w : SMat.Idx → EReal) (b : SVec.Idx → EReal) : SMat.Idx → EReal :=
  fun j => (∑ k : Fin 4096, mu (ix2 (j 0) k) * w (ix2 k (j 1))) + b (ix1 (j 1))

/-- The variance result: the squared input means against softplus of the flat weight parameter read as a
    matrix, plus softplus of the bias parameter. -/
def varOut (mu : SMat.Idx → EReal) (ws : SFlat.Idx → EReal) (bs : SVec.Idx → EReal) : SMat.Idx → EReal :=
  fun j => (∑ k : Fin 4096, (mu (ix2 (j 0) k) * mu (ix2 (j 0) k)) * sp (ws (ix1 (flat k (j 1))))) + sp (bs (ix1 (j 1)))

/-- Position `j` of run `s` among 8 runs of 512. -/
def inRun (s : Fin 8) (j : Fin 512) : Fin 4096 := ⟨512 * s.val + j.val, by have := s.isLt; have := j.isLt; omega⟩

/-- The grid has 4 × 4 × 8 points, the last coordinate fastest: linear point `n` works on row block `n / 32 % 4`,
    column block `n / 8 % 4` and depth run `n % 8`. Row `p` of that row block, -/
def rowAt (n : ℕ) (p : Fin 1024) : Fin 4096 := ⟨1024 * (n / 32 % 4) + p.val, by have := p.isLt; omega⟩

/-- column `q` of that column block, -/
def colAt (n : ℕ) (q : Fin 1024) : Fin 4096 := ⟨1024 * (n / 8 % 4) + q.val, by have := q.isLt; omega⟩

/-- and position `j` of that depth run (a function of every natural, so that a fold over points needs no bound). -/
def depthAt (n : ℕ) (j : Fin 512) : Fin 4096 := ⟨512 * (n % 8) + j.val, by have := j.isLt; omega⟩

/-- At the `s`-th point of a run of 8 the depth run is `s`. -/
theorem depthAt_run (b : ℕ) (s : Fin 8) (j : Fin 512) : depthAt (8 * b + s.val) j = inRun s j := by
  apply Fin.ext
  show 512 * ((8 * b + s.val) % 8) + j.val = 512 * s.val + j.val
  have := s.isLt
  omega

/-- Along a run of 8 the row block and the column block do not move. -/
theorem rowAt_run (b : ℕ) (s : Fin 8) (p : Fin 1024) : rowAt (8 * b + s.val) p = rowAt (8 * b) p := by
  apply Fin.ext
  show 1024 * ((8 * b + s.val) / 32 % 4) + p.val = 1024 * (8 * b / 32 % 4) + p.val
  have := s.isLt
  omega

theorem colAt_run (b : ℕ) (s : Fin 8) (q : Fin 1024) : colAt (8 * b + s.val) q = colAt (8 * b) q := by
  apply Fin.ext
  show 1024 * ((8 * b + s.val) / 8 % 4) + q.val = 1024 * (8 * b / 8 % 4) + q.val
  have := s.isLt
  omega

/-- A sum over 4096 terms, regrouped as 8 consecutive runs of 512. -/
theorem sum_runs {M : Type*} [AddCommMonoid M] (f : Fin 4096 → M) :
    ∑ k : Fin 4096, f k = ∑ s : Fin 8, ∑ j : Fin 512, f (inRun s j) := by
  rw [← Fintype.sum_prod_type' (fun s j => f (inRun s j))]
  refine (Fintype.sum_equiv (finProdFinEquiv (m := 8) (n := 512)) (fun x => f (inRun x.1 x.2)) f ?_).symm
  intro x
  congr 1
  apply Fin.ext
  show 512 * x.1.val + x.2.val = x.2.val + 512 * x.1.val
  omega

/-- The same over a range of naturals, the form a fold over consecutive grid points produces: `g s` is
    run `s`'s partial sum, used only for `s < 8`. -/
theorem sum_runs_range {M : Type*} [AddCommMonoid M] (f : Fin 4096 → M) (g : ℕ → M)
    (hg : ∀ s : Fin 8, g s.val = ∑ j : Fin 512, f (inRun s j)) :
    ∑ k : Fin 4096, f k = ∑ s ∈ Finset.range 8, g s := by
  rw [sum_runs, Finset.sum_range]
  exact Finset.sum_congr rfl fun s _ => (hg s).symm

end Cert.BayesLin

end
-- ==== Proof.Softplus.lean ====
/-
  Both programs' softplus, read at an index, is `sp` of the element.

  The kernel spells it `select (x - 0 ≠ x - 0) (x + 0) (max x 0 + log1p (exp (0 - |x - 0|)))` and the host
  `select (x - 0 ≠ x - 0) (x + 0) (max x 0 + log1p (exp (-|x - 0|)))`. On the extended reals nothing differs from
  itself, so the guard is the zero bit and the select takes its last operand; the zero word denotes `0`; and
  `0 - y = -y`.
-/
import proofs.«138907_j841813590058_1_alg».proof.Proof.Spec

noncomputable section

open Idealize.ShloMosaic Idealize.ShloMosaic.ValueIdx

namespace Cert.BayesLin

/-- No extended real differs from itself: the guard bit is zero, whichever of the two spellings asks. -/
theorem cmp_one_self (a : EReal) : Ideal.cmp .one a a = 0#1 := by
  simp [Ideal.cmp]

theorem cmp_une_self (a : EReal) : Ideal.cmp .une a a = 0#1 := by
  simp [Ideal.cmp]

/-- The kernel's softplus of a vector, at an index. -/
theorem softplus_kernel_apply {s : Shape} (x : FVec Ideal s .f32) (i : s.Idx) :
    (select (cmpf .one (subf x (broadcast s (Scalar.ofBits .f32 0x00000000#32))) (subf x (broadcast s (Scalar.ofBits .f32 0x00000000#32))))
      (addf x (broadcast s (Scalar.ofBits .f32 0x00000000#32)))
      (addf (maximumf x (broadcast s (Scalar.ofBits .f32 0x00000000#32)))
        (log1p (exp (subf (broadcast s (Scalar.ofBits .f32 0x00000000#32))
          (absf (subf x (broadcast s (Scalar.ofBits .f32 0x00000000#32))))))))) i = sp (x i) := by
  show Scalar.select (Ideal.cmp .one (x i - Ideal.ofBits .f32 0x00000000#32) (x i - Ideal.ofBits .f32 0x00000000#32)) _ _ = _
  rw [cmp_one_self, select_zero]
  show max (x i) (Ideal.ofBits .f32 0x00000000#32) + Ideal.log1p (Ideal.exp (Ideal.ofBits .f32 0x00000000#32
    - max (x i - Ideal.ofBits .f32 0x00000000#32) (-(x i - Ideal.ofBits .f32 0x00000000#32)))) = _
  rw [Ideal.ofBits_zero_f32, zero_sub]
  rfl

/-- The host's softplus of a vector, at an index: its zero is a scalar constant broadcast to the shape. -/
theorem softplus_host_apply {s : Shape} (hb : (⟨0, ![]⟩ : Shape).BroadcastsInDim s ![]) (x : FVec Ideal s .f32) (i : s.Idx) :
    (select (cmpf .une (subf x (broadcastInDim s ![] hb (constant (F := Ideal) ⟨0, ![]⟩ .f32 0x00000000#32)))
        (subf x (broadcastInDim s ![] hb (constant (F := Ideal) ⟨0, ![]⟩ .f32 0x00000000#32))))
      (addf x (broadcastInDim s ![] hb (constant (F := Ideal) ⟨0, ![]⟩ .f32 0x00000000#32)))
      (addf (maximumf x (broadcastInDim s ![] hb (constant (F := Ideal) ⟨0, ![]⟩ .f32 0x00000000#32)))
        (Host.log1p (Host.exp (Host.negf (Host.absf
          (subf x (broadcastInDim s ![] hb (constant (F := Ideal) ⟨0, ![]⟩ .f32 0x00000000#32))))))))) i = sp (x i) := by
  show Scalar.select (Ideal.cmp .une (x i - Ideal.ofBits .f32 0x00000000#32) (x i - Ideal.ofBits .f32 0x00000000#32)) _ _ = _
  rw [cmp_une_self, select_zero]
  show max (x i) (Ideal.ofBits .f32 0x00000000#32) + Ideal.log1p (Ideal.exp
    (-(max (x i - Ideal.ofBits .f32 0x00000000#32) (-(x i - Ideal.ofBits .f32 0x00000000#32))))) = _
  rw [Ideal.ofBits_zero_f32]
  rfl

end Cert.BayesLin

end
-- ==== Proof.Payload.lean ====
/-
  The body's arithmetic, read at an entry `(p, q)` of a 1024 × 1024 tile over the extended reals.

  * the matrix unit's product of a 1024 × 512 block `a` and a 512 × 1024 block `b` into a zero accumulator is
    `∑ j, a (p, j) · b (j, q)` over the 512 positions of the depth run (`matmul_zero_apply`);
  * the mean step adds that to what the accumulator held (`mean_step`); the variance step does the same with
    softplus applied to the second block entry by entry (`var_step`): a change of float format is the identity;
  * the reset stores zero (`reset_mean`, `reset_var`); the last step adds the bias row's entry `q` (`bias_mean`, `bias_var`).
-/
import proofs.«138907_j841813590058_1_alg».proof.Proof.Gen.KernelIdeal.Skeleton
import proofs.«138907_j841813590058_1_alg».proof.Proof.Spec
import proofs.«138907_j841813590058_1_alg».proof.Proof.Softplus
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen Cert.BayesLin

/-! ## The product's operand indices: row of the left block, column of the right, the depth position shared -/

theorem lhs_row (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_depth (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_depth (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_col (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of two blocks into a zero accumulator, at entry `(p, q)`: the sum over the depth run. -/
theorem matmul_zero_apply (a : FVec Ideal S1024x512 .bf16) (b : FVec Ideal S512x1024 .bf16) (p q : Fin 1024) :
    matmul dot_S1024x512_S512x1024_S1024x1024_1_0_0_1_n_n none a b (constant S1024x1024 .f32 0x00000000#32) (ix2 p q)
      = ∑ j : Fin 512, a (ix2 p j) * b (ix2 j q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_row _ _
    | ⟨1, _⟩ => exact (lhs_depth _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs_depth _ _).trans hk
    | ⟨1, _⟩ => exact rhs_col _ _)
  rw [el, er]

/-! ## The payloads -/

/-- The reset of the mean accumulator stores zero. -/
theorem reset_mean (i : S1024x1024.Idx) : k0_pay4 (F := Ideal) i = 0 := by
  unfold k0_pay4
  simp only [shapeCast_self]
  exact Ideal.ofBits_zero_f32

/-- The reset of the variance accumulator stores zero. -/
theorem reset_var (i : S1024x1024.Idx) : k0_pay5 (F := Ideal) i = 0 := by
  unfold k0_pay5
  simp only [shapeCast_self]
  exact Ideal.ofBits_zero_f32

/-- The mean step: the accumulator plus the product of the input block with the weight block. -/
theorem mean_step (acc : Vec Ideal S1024x1024 .f32) (a : Vec Ideal S1024x512 .bf16) (b : Vec Ideal S512x1024 .bf16)
    (p q : Fin 1024) :
    k0_pay6 acc a b (ix2 p q) = acc (ix2 p q) + ∑ j : Fin 512, a (ix2 p j) * b (ix2 j q) := by
  unfold k0_pay6
  simp only [shapeCast_self]
  exact congrArg (acc (ix2 p q) + ·) (matmul_zero_apply a b p q)

/-- The variance step: the accumulator plus the product of the squared-input block with softplus of the
    parameter block, entry by entry. -/
theorem var_step (x3 : Vec Ideal S512x1024 .f32) (acc : Vec Ideal S1024x1024 .f32) (a : Vec Ideal S1024x512 .bf16)
    (p q : Fin 1024) :
    k0_pay1 (k0_pay7 x3 acc a) (ix2 p q) = acc (ix2 p q) + ∑ j : Fin 512, a (ix2 p j) * sp (x3 (ix2 j q)) := by
  unfold k0_pay1 k0_pay7
  simp only [shapeCast_self]
  refine (congrArg (acc (ix2 p q) + ·) (matmul_zero_apply a _ p q)).trans ?_
  refine congrArg (acc (ix2 p q) + ·) (Finset.sum_congr rfl fun j _ => ?_)
  refine congrArg (a (ix2 p j) * ·) ?_
  exact softplus_kernel_apply x3 (ix2 j q)

/-- A 1 × 1024 row broadcast over the tile, at entry `(p, q)`: the row's entry `q`. -/
theorem row_broadcast_apply (b : FVec Ideal S1x1024 .f32) (p q : Fin 1024) :
    broadcastTo S1024x1024 b broadcasts_S1x1024_S1024x1024 (ix2 p q) = b (ix2 (0 : Fin 1) q) :=
  broadcastTo_apply b broadcasts_S1x1024_S1024x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- The last step of the mean: the accumulator plus the bias row's entry. -/
theorem bias_mean (acc : Vec Ideal S1024x1024 .f32) (b : Vec Ideal S1x1024 .f32) (p q : Fin 1024) :
    k0_pay2 acc b (ix2 p q) = acc (ix2 p q) + b (ix2 (0 : Fin 1) q) := by
  unfold k0_pay2
  simp only [shapeCast_self]
  exact congrArg (acc (ix2 p q) + ·) (row_broadcast_apply b p q)

/-- The last step of the variance: the accumulator plus the softplus-ed bias row's entry. -/
theorem bias_var (acc : Vec Ideal S1024x1024 .f32) (b : Vec Ideal S1x1024 .f32) (p q : Fin 1024) :
    k0_pay3 acc b (ix2 p q) = acc (ix2 p q) + b (ix2 (0 : Fin 1) q) := by
  unfold k0_pay3
  simp only [shapeCast_self]
  exact congrArg (acc (ix2 p q) + ·) (row_broadcast_apply b p q)

end Cert.KernelIdeal.Payload

end
-- ==== Proof.Blocks.lean ====
/-
  What each input block holds, as entries of the argument arrays (over the extended reals).

  The grid has 4 × 4 × 8 points, the last coordinate fastest: point `t` has coordinates
  `(t / 32, t / 8 % 4, t % 8)` = (row block, column block, depth run). Every window's block index is two of these
  (or the constant 0), decided once over the 128 points; a block's coordinate in its array is always
  `block index × block size + coordinate inside the block`, which is `rowAt`, `colAt` or `depthAt` of the point.

  The arrays the windows stage are written by the host before the region: conversions to bf16 (the identity on
  the extended reals), the elementwise square, reshapes (the same row-major position) and softplus of the bias
  parameter. Read at an index they are entries of the argument arrays.
-/
import proofs.«138907_j841813590058_1_alg».proof.Proof.Gen.KernelIdeal.Frame
import proofs.«138907_j841813590058_1_alg».proof.Proof.Spec
import proofs.«138907_j841813590058_1_alg».proof.Proof.Softplus
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem

namespace Cert.KernelIdeal.Blocks

open Cert.KernelIdeal Cert.KernelIdeal.Gen Cert.BayesLin Idealize.ShloMosaic.ValueIdx

variable (m : (ℓ : Loc nD τ sig) → Buf (Elt Ideal) ℓ) (c : Dev nD)

/-! ## The block indices, decided over the grid -/

/-- Windows 0 and 1 (the input means and their squares): block (row block, depth run). -/
theorem idx0 : ∀ t : Fin cfg0.N, win0_0.index t (0 : Fin 2) = t.val / 32 ∧ win0_0.index t (1 : Fin 2) = t.val % 8 :=
  (by decide +kernel : ∀ t : Fin grid0.N, _)

theorem idx1 : ∀ t : Fin cfg0.N, win0_1.index t (0 : Fin 2) = t.val / 32 ∧ win0_1.index t (1 : Fin 2) = t.val % 8 :=
  (by decide +kernel : ∀ t : Fin grid0.N, _)

/-- Windows 2 and 3 (the weight means and the weight parameter): block (depth run, column block). -/
theorem idx2 : ∀ t : Fin cfg0.N, win0_2.index t (0 : Fin 2) = t.val % 8 ∧ win0_2.index t (1 : Fin 2) = t.val / 8 % 4 :=
  (by decide +kernel : ∀ t : Fin grid0.N, _)

theorem idx3 : ∀ t : Fin cfg0.N, win0_3.index t (0 : Fin 2) = t.val % 8 ∧ win0_3.index t (1 : Fin 2) = t.val / 8 % 4 :=
  (by decide +kernel : ∀ t : Fin grid0.N, _)

/-- Windows 4 and 5 (the bias mean and softplus of the bias parameter, as one-row matrices): block (0, column block). -/
theorem idx4 : ∀ t : Fin cfg0.N, win0_4.index t (0 : Fin 2) = 0 ∧ win0_4.index t (1 : Fin 2) = t.val / 8 % 4 :=
  (by decide +kernel : ∀ t : Fin grid0.N, _)

theorem idx5 : ∀ t : Fin cfg0.N, win0_5.index t (0 : Fin 2) = 0 ∧ win0_5.index t (1 : Fin 2) = t.val / 8 % 4 :=
  (by decide +kernel : ∀ t : Fin grid0.N, _)

/-- Windows 6 and 7 (the two results): block (row block, column block). -/
theorem idx6 : ∀ t : Fin cfg0.N, win0_6.index t (0 : Fin 2) = t.val / 32 ∧ win0_6.index t (1 : Fin 2) = t.val / 8 % 4 :=
  (by decide +kernel : ∀ t : Fin grid0.N, _)

theorem idx7 : ∀ t : Fin cfg0.N, win0_7.index t (0 : Fin 2) = t.val / 32 ∧ win0_7.index t (1 : Fin 2) = t.val / 8 % 4 :=
  (by decide +kernel : ∀ t : Fin grid0.N, _)

/-- A point is below 128, so its row block `t / 32` is already below 4. -/
theorem row_mod (t : Fin cfg0.N) : t.val / 32 % 4 = t.val / 32 := by
  have h : t.val < 128 := t.isLt
  omega

/-! ## A block read at coordinates: the array at (block index × block size + coordinate inside the block) -/

/-- Window 0's block at `(p, j)` is its array (the input means, converted) at `(rowAt t p, depthAt t j)`. -/
theorem read0 (t : Fin cfg0.N) (p : Fin 1024) (j : Fin 512) :
    (iblk m c 0 t : Vec Ideal S1024x512 .bf16) (ix2 p j)
      = (V m c main_v4 : S4096x4096.Idx → EReal) (ix2 (rowAt t.val p) (depthAt t.val j)) := by
  have ht : t.val < 128 := t.isLt
  unfold iblk
  rw [View.read_apply]
  show (V m c main_v4 : S4096x4096.Idx → EReal) (((cfg0.win 0).blk t).view.emb (ix2 p j)) = _
  congr 1
  funext a
  apply Fin.ext
  match a with
  | ⟨0, _⟩ => show win0_0.index t 0 * 1024 + 1 * p.val = 1024 * (t.val / 32 % 4) + p.val; rw [(idx0 t).1]; omega
  | ⟨1, _⟩ => show win0_0.index t 1 * 512 + 1 * j.val = 512 * (t.val % 8) + j.val; rw [(idx0 t).2]; omega

/-- Window 1's block (the squared input means, converted) likewise. -/
theorem read1 (t : Fin cfg0.N) (p : Fin 1024) (j : Fin 512) :
    (iblk m c 1 t : Vec Ideal S1024x512 .bf16) (ix2 p j)
      = (V m c main_v6 : S4096x4096.Idx → EReal) (ix2 (rowAt t.val p) (depthAt t.val j)) := by
  have ht : t.val < 128 := t.isLt
  unfold iblk
  rw [View.read_apply]
  show (V m c main_v6 : S4096x4096.Idx → EReal) (((cfg0.win 1).blk t).view.emb (ix2 p j)) = _
  congr 1
  funext a
  apply Fin.ext
  match a with
  | ⟨0, _⟩ => show win0_1.index t 0 * 1024 + 1 * p.val = 1024 * (t.val / 32 % 4) + p.val; rw [(idx1 t).1]; omega
  | ⟨1, _⟩ => show win0_1.index t 1 * 512 + 1 * j.val = 512 * (t.val % 8) + j.val; rw [(idx1 t).2]; omega

/-- Window 2's block at `(j, q)` is its array (the weight means, converted) at `(depthAt t j, colAt t q)`. -/
theorem read2 (t : Fin cfg0.N) (j : Fin 512) (q : Fin 1024) :
    (iblk m c 2 t : Vec Ideal S512x1024 .bf16) (ix2 j q)
      = (V m c main_v7 : S4096x4096.Idx → EReal) (ix2 (depthAt t.val j) (colAt t.val q)) := by
  unfold iblk
  rw [View.read_apply]
  show (V m c main_v7 : S4096x4096.Idx → EReal) (((cfg0.win 2).blk t).view.emb (ix2 j q)) = _
  congr 1
  funext a
  apply Fin.ext
  match a with
  | ⟨0, _⟩ => show win0_2.index t 0 * 512 + 1 * j.val = 512 * (t.val % 8) + j.val; rw [(idx2 t).1]; omega
  | ⟨1, _⟩ => show win0_2.index t 1 * 1024 + 1 * q.val = 1024 * (t.val / 8 % 4) + q.val; rw [(idx2 t).2]; omega

/-- Window 3's block (the weight parameter as a matrix) likewise. -/
theorem read3 (t : Fin cfg0.N) (j : Fin 512) (q : Fin 1024) :
    (iblk m c 3 t : Vec Ideal S512x1024 .f32) (ix2 j q)
      = (V m c main_v0 : S4096x4096.Idx → EReal) (ix2 (depthAt t.val j) (colAt t.val q)) := by
  unfold iblk
  rw [View.read_apply]
  show (V m c main_v0 : S4096x4096.Idx → EReal) (((cfg0.win 3).blk t).view.emb (ix2 j q)) = _
  congr 1
  funext a
  apply Fin.ext
  match a with
  | ⟨0, _⟩ => show win0_3.index t 0 * 512 + 1 * j.val = 512 * (t.val % 8) + j.val; rw [(idx3 t).1]; omega
  | ⟨1, _⟩ => show win0_3.index t 1 * 1024 + 1 * q.val = 1024 * (t.val / 8 % 4) + q.val; rw [(idx3 t).2]; omega

/-- Window 4's block (the bias mean as a one-row matrix) at `(0, q)` is its array at `(0, colAt t q)`. -/
theorem read4 (t : Fin cfg0.N) (q : Fin 1024) :
    (iblk m c 4 t : Vec Ideal S1x1024 .f32) (ix2 (0 : Fin 1) q)
      = (V m c main_v1 : S1x4096.Idx → EReal) (ix2 (0 : Fin 1) (colAt t.val q)) := by
  unfold iblk
  rw [View.read_apply]
  show (V m c main_v1 : S1x4096.Idx → EReal) (((cfg0.win 4).blk t).view.emb (ix2 (0 : Fin 1) q)) = _
  congr 1
  funext a
  apply Fin.ext
  match a with
  | ⟨0, _⟩ => show win0_4.index t 0 * 1 + 1 * (0 : Fin 1).val = 0; rw [(idx4 t).1]; rfl
  | ⟨1, _⟩ => show win0_4.index t 1 * 1024 + 1 * q.val = 1024 * (t.val / 8 % 4) + q.val; rw [(idx4 t).2]; omega

/-- Window 5's block (softplus of the bias parameter as a one-row matrix) likewise. -/
theorem read5 (t : Fin cfg0.N) (q : Fin 1024) :
    (iblk m c 5 t : Vec Ideal S1x1024 .f32) (ix2 (0 : Fin 1) q)
      = (V m c main_v3 : S1x4096.Idx → EReal) (ix2 (0 : Fin 1) (colAt t.val q)) := by
  unfold iblk
  rw [View.read_apply]
  show (V m c main_v3 : S1x4096.Idx → EReal) (((cfg0.win 5).blk t).view.emb (ix2 (0 : Fin 1) q)) = _
  congr 1
  funext a
  apply Fin.ext
  match a with
  | ⟨0, _⟩ => show win0_5.index t 0 * 1 + 1 * (0 : Fin 1).val = 0; rw [(idx5 t).1]; rfl
  | ⟨1, _⟩ => show win0_5.index t 1 * 1024 + 1 * q.val = 1024 * (t.val / 8 % 4) + q.val; rw [(idx5 t).2]; omega

/-! ## Where an output block's element lands -/

/-- Element `(p, q)` of the mean result's block at point `t` is the array's `(rowAt t p, colAt t q)`. -/
theorem emb6 (t : Fin cfg0.N) (p q : Fin 1024) :
    (((cfg0.win 6).blk t).view.emb (ix2 p q) : S4096x4096.Idx) = ix2 (rowAt t.val p) (colAt t.val q) := by
  have ht : t.val < 128 := t.isLt
  funext a
  apply Fin.ext
  match a with
  | ⟨0, _⟩ => show win0_6.index t 0 * 1024 + 1 * p.val = 1024 * (t.val / 32 % 4) + p.val; rw [(idx6 t).1]; omega
  | ⟨1, _⟩ => show win0_6.index t 1 * 1024 + 1 * q.val = 1024 * (t.val / 8 % 4) + q.val; rw [(idx6 t).2]; omega

/-- The variance result's block likewise. -/
theorem emb7 (t : Fin cfg0.N) (p q : Fin 1024) :
    (((cfg0.win 7).blk t).view.emb (ix2 p q) : S4096x4096.Idx) = ix2 (rowAt t.val p) (colAt t.val q) := by
  have ht : t.val < 128 := t.isLt
  funext a
  apply Fin.ext
  match a with
  | ⟨0, _⟩ => show win0_7.index t 0 * 1024 + 1 * p.val = 1024 * (t.val / 32 % 4) + p.val; rw [(idx7 t).1]; omega
  | ⟨1, _⟩ => show win0_7.index t 1 * 1024 + 1 * q.val = 1024 * (t.val / 8 % 4) + q.val; rw [(idx7 t).2]; omega

/-! ## The staged arrays, as the region finds them, in terms of the arguments -/

/-- The converted input means are the argument: conversion to bf16 is the identity on the extended reals. -/
theorem V_v4 : (V m c main_v4 : S4096x4096.Idx → EReal)
    = truncf (F := Ideal) .bf16 (m ((c : Thread nD τ).loc main_arg0) : FVec Ideal S4096x4096 .f32) Facts₀.bitsLt_bf16_f32 := by
  dsimp only [Gen.V, Gen.V0]
  simp only [Gen.hostOps0, Gen.hostOps0_1, Gen.hostOps0_2, List.flatten_cons, List.flatten_nil, List.append_nil, List.cons_append,
    List.nil_append]
  after_results

/-- The converted squares are the elementwise square of the argument. -/
theorem V_v6 : (V m c main_v6 : S4096x4096.Idx → EReal)
    = truncf (F := Ideal) .bf16 (mulf (F := Ideal) (m ((c : Thread nD τ).loc main_arg0) : FVec Ideal S4096x4096 .f32)
        (m ((c : Thread nD τ).loc main_arg0) : FVec Ideal S4096x4096 .f32)) Facts₀.bitsLt_bf16_f32 := by
  dsimp only [Gen.V, Gen.V0]
  simp only [Gen.hostOps0, Gen.hostOps0_1, Gen.hostOps0_2, List.flatten_cons, List.flatten_nil, List.append_nil, List.cons_append,
    List.nil_append]
  after_results

/-- The converted weight means are the argument. -/
theorem V_v7 : (V m c main_v7 : S4096x4096.Idx → EReal)
    = truncf (F := Ideal) .bf16 (m ((c : Thread nD τ).loc main_arg2) : FVec Ideal S4096x4096 .f32) Facts₀.bitsLt_bf16_f32 := by
  dsimp only [Gen.V, Gen.V0]
  simp only [Gen.hostOps0, Gen.hostOps0_1, Gen.hostOps0_2, List.flatten_cons, List.flatten_nil, List.append_nil, List.cons_append,
    List.nil_append]
  after_results

/-- The weight parameter as a matrix: the flat argument at the same row-major positions. -/
theorem V_v0 : (V m c main_v0 : S4096x4096.Idx → EReal)
    = shapeCast S4096x4096 (m ((c : Thread nD τ).loc main_arg3) : S16777216.Idx → EReal) Facts₀.shapeCasts_S16777216_S4096x4096 := by
  dsimp only [Gen.V, Gen.V0]
  simp only [Gen.hostOps0, Gen.hostOps0_1, Gen.hostOps0_2, List.flatten_cons, List.flatten_nil, List.append_nil, List.cons_append,
    List.nil_append]
  after_results
  rfl

/-- The bias mean as a one-row matrix. -/
theorem V_v1 : (V m c main_v1 : S1x4096.Idx → EReal)
    = shapeCast S1x4096 (m ((c : Thread nD τ).loc main_arg4) : S4096.Idx → EReal) Facts₀.shapeCasts_S4096_S1x4096 := by
  dsimp only [Gen.V, Gen.V0]
  simp only [Gen.hostOps0, Gen.hostOps0_1, Gen.hostOps0_2, List.flatten_cons, List.flatten_nil, List.append_nil, List.cons_append,
    List.nil_append]
  after_results
  rfl

/-- The host's softplus of a vector of 4096, as its fourteen operations compose. -/
abbrev hostSoftplus (x : FVec Ideal S4096 .f32) : FVec Ideal S4096 .f32 :=
  select (cmpf .une (subf x (broadcastInDim S4096 ![] Facts₀.bcast_S_S4096 (constant (F := Ideal) S_ .f32 0x00000000#32)))
      (subf x (broadcastInDim S4096 ![] Facts₀.bcast_S_S4096 (constant (F := Ideal) S_ .f32 0x00000000#32))))
    (addf x (broadcastInDim S4096 ![] Facts₀.bcast_S_S4096 (constant (F := Ideal) S_ .f32 0x00000000#32)))
    (addf (maximumf x (broadcastInDim S4096 ![] Facts₀.bcast_S_S4096 (constant (F := Ideal) S_ .f32 0x00000000#32)))
      (Host.log1p (F := Ideal) (Host.exp (F := Ideal) (Host.negf (F := Ideal) (Host.absf (F := Ideal)
        (subf x (broadcastInDim S4096 ![] Facts₀.bcast_S_S4096 (constant (F := Ideal) S_ .f32 0x00000000#32))))))))

/-- Softplus of the bias parameter as a one-row matrix. -/
theorem V_v3 : (V m c main_v3 : S1x4096.Idx → EReal)
    = shapeCast S1x4096 (hostSoftplus (m ((c : Thread nD τ).loc main_arg5) : FVec Ideal S4096 .f32)) Facts₀.shapeCasts_S4096_S1x4096 := by
  dsimp only [Gen.V, Gen.V0]
  simp only [Gen.hostOps0, Gen.hostOps0_1, Gen.hostOps0_2, List.flatten_cons, List.flatten_nil, List.append_nil, List.cons_append,
    List.nil_append]
  after_results_simp
  rfl

/-! ## Each input block as entries of the arguments -/

/-- The input means' block: rows of the row block, the depth run's positions. -/
theorem blk_mu (t : Fin cfg0.N) (p : Fin 1024) (j : Fin 512) :
    (iblk m c 0 t : Vec Ideal S1024x512 .bf16) (ix2 p j)
      = m ((c : Thread nD τ).loc main_arg0) (ix2 (rowAt t.val p) (depthAt t.val j)) := by
  rw [read0, V_v4]
  rfl

/-- The squared input means' block. -/
theorem blk_musq (t : Fin cfg0.N) (p : Fin 1024) (j : Fin 512) :
    (iblk m c 1 t : Vec Ideal S1024x512 .bf16) (ix2 p j)
      = HMul.hMul (α := EReal) (β := EReal) (γ := EReal)
          (m ((c : Thread nD τ).loc main_arg0) (ix2 (rowAt t.val p) (depthAt t.val j)))
          (m ((c : Thread nD τ).loc main_arg0) (ix2 (rowAt t.val p) (depthAt t.val j))) := by
  rw [read1, V_v6]
  rfl

/-- The weight means' block: the depth run's positions, columns of the column block. -/
theorem blk_w (t : Fin cfg0.N) (j : Fin 512) (q : Fin 1024) :
    (iblk m c 2 t : Vec Ideal S512x1024 .bf16) (ix2 j q)
      = m ((c : Thread nD τ).loc main_arg2) (ix2 (depthAt t.val j) (colAt t.val q)) := by
  rw [read2, V_v7]
  rfl

/-- The weight parameter's block: the flat argument at the row-major position of (depth position, column). -/
theorem blk_ws (t : Fin cfg0.N) (j : Fin 512) (q : Fin 1024) :
    (iblk m c 3 t : Vec Ideal S512x1024 .f32) (ix2 j q)
      = m ((c : Thread nD τ).loc main_arg3) (ix1 (flat (depthAt t.val j) (colAt t.val q))) := by
  rw [read3, V_v0]
  exact shapeCast_apply _ _ _ _ (by
    show (S16777216.rowMajor _).val = (S4096x4096.rowMajor _).val
    rw [Shape.rowMajor_val_one, Shape.rowMajor_val_two]
    show 4096 * (depthAt t.val j).val + (colAt t.val q).val = (depthAt t.val j).val * 4096 + (colAt t.val q).val
    omega)

/-- The bias mean's block: columns of the column block. -/
theorem blk_b (t : Fin cfg0.N) (q : Fin 1024) :
    (iblk m c 4 t : Vec Ideal S1x1024 .f32) (ix2 (0 : Fin 1) q)
      = m ((c : Thread nD τ).loc main_arg4) (ix1 (colAt t.val q)) := by
  rw [read4, V_v1]
  exact shapeCast_a_1a_apply _ _ _ _

/-- The bias parameter's block: softplus of the argument at the columns of the column block. -/
theorem blk_bs (t : Fin cfg0.N) (q : Fin 1024) :
    (iblk m c 5 t : Vec Ideal S1x1024 .f32) (ix2 (0 : Fin 1) q)
      = sp (m ((c : Thread nD τ).loc main_arg5) (ix1 (colAt t.val q))) := by
  rw [read5, V_v3]
  refine (shapeCast_a_1a_apply _ _ _ _).trans ?_
  exact softplus_host_apply Facts₀.bcast_S_S4096 _ _

end Cert.KernelIdeal.Blocks

end
-- ==== Proof.Fold.lean ====
/-
  The accumulators at a run's last point, and the output tiles, as entries of the two matrix results.

  Along a run of 8 grid points (depth coordinate 0 … 7) the row block and the column block stay put and the
  depth run advances, so the mean accumulator after the run's last point is zero plus the sum of the 8 partial
  products: at tile entry `(p, q)` that is the whole 4096-term sum `∑ k, mu (row, k) · w (k, col)` regrouped in 8
  runs of 512 (`Cert.BayesLin.sum_runs_range`). The output tile adds the bias entry: `meanOut` at the global index
  `(row, col)`. The variance accumulator is the same with the squared input and softplus of the parameter.
-/
import proofs.«138907_j841813590058_1_alg».proof.Proof.Gen.KernelIdeal.Frame
import proofs.«138907_j841813590058_1_alg».proof.Proof.Accum
import proofs.«138907_j841813590058_1_alg».proof.Proof.Payload
import proofs.«138907_j841813590058_1_alg».proof.Proof.Blocks
import proofs.«138907_j841813590058_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Fold

open Cert.KernelIdeal Cert.KernelIdeal.Gen Cert.BayesLin

variable (m : (ℓ : Loc nD τ sig) → Buf (Elt Ideal) ℓ) (c : Dev nD)

/-- The argument arrays: input means, weight means, the flat weight parameter, the two bias vectors. -/
abbrev mu : S4096x4096.Idx → EReal := m ((c : Thread nD τ).loc main_arg0)
abbrev wm : S4096x4096.Idx → EReal := m ((c : Thread nD τ).loc main_arg2)
abbrev ws : S16777216.Idx → EReal := m ((c : Thread nD τ).loc main_arg3)
abbrev bm : S4096.Idx → EReal := m ((c : Thread nD τ).loc main_arg4)
abbrev bs : S4096.Idx → EReal := m ((c : Thread nD τ).loc main_arg5)

/-- The run's first point `8 (t / 8)` has the row block and the column block of `t`. -/
theorem rowAt_base (t : ℕ) (p : Fin 1024) : rowAt (8 * (t / 8)) p = rowAt t p := by
  apply Fin.ext
  show 1024 * (8 * (t / 8) / 32 % 4) + p.val = 1024 * (t / 32 % 4) + p.val
  omega

theorem colAt_base (t : ℕ) (q : Fin 1024) : colAt (8 * (t / 8)) q = colAt t q := by
  apply Fin.ext
  show 1024 * (8 * (t / 8) / 8 % 4) + q.val = 1024 * (t / 8 % 4) + q.val
  omega

/-! ## The mean -/

/-- Point `n`'s partial product for the mean, at tile entry `i`: the 512 terms of its depth run. -/
def meanTerm (n : ℕ) (i : S1024x1024.Idx) : EReal :=
  ∑ j : Fin 512, mu m c (ix2 (rowAt n (i 0)) (depthAt n j)) * wm m c (ix2 (depthAt n j) (colAt n (i 1)))

/-- The step at point `n` adds that partial product to what the accumulator held. -/
theorem mean_step_apply (n : ℕ) (h : n < cfg0.N) (acc : Vec Ideal S1024x1024 .f32) (i : S1024x1024.Idx) :
    k0_pay6 acc (Accum.xmu m c n h) (Accum.xw m c n h) i = acc i + meanTerm m c n i := by
  obtain ⟨p, q, rfl⟩ : ∃ (p q : Fin 1024), i = ix2 p q := ⟨i 0, i 1, eq_ix2 i⟩
  refine (Payload.mean_step acc (Accum.xmu m c n h) (Accum.xw m c n h) p q).trans ?_
  refine congrArg (acc (ix2 p q) + ·) (Finset.sum_congr rfl fun j _ => ?_)
  exact congrArg₂ (· * ·) (Blocks.blk_mu m c ⟨n, h⟩ p j) (Blocks.blk_w m c ⟨n, h⟩ j q)

/-- The reset point leaves zero plus its partial product. -/
theorem mean_reset_apply (n : ℕ) (h : n < cfg0.N) (i : S1024x1024.Idx) :
    k0_pay6 (k0_pay4 (F := Ideal)) (Accum.xmu m c n h) (Accum.xw m c n h) i = 0 + meanTerm m c n i := by
  refine (mean_step_apply m c n h (k0_pay4 (F := Ideal)) i).trans ?_
  rw [Payload.reset_mean]

/-- After a run's last point the mean accumulator holds, at tile entry `(p, q)`, the whole product sum of the
    point's row and column. -/
theorem acc0_last (t : Fin cfg0.N) (h7 : t.val % 8 = 7) (p q : Fin 1024) :
    Accum.acc0 m c t.val t.isLt (ix2 p q)
      = 0 + ∑ k : Fin 4096, mu m c (ix2 (rowAt t.val p) k) * wm m c (ix2 k (colAt t.val q)) := by
  have hN : cfg0.N = 128 := N_0
  have ht := t.isLt
  have h' : 8 * (t.val / 8) + t.val % 8 < cfg0.N := by omega
  rw [Pipeline.eq_accAt_of_mod (Accum.acc0 m c) 8
      (fun n h => k0_pay6 (k0_pay4 (F := Ideal)) (Accum.xmu m c n h) (Accum.xw m c n h))
      (fun n h acc => k0_pay6 acc (Accum.xmu m c n h) (Accum.xw m c n h))
      (fun n h h0 => Accum.acc0_reset m c n h h0)
      (fun n h hne => Accum.acc0_step m c n h hne) (by decide) t.val t.isLt h']
  rw [Pipeline.accAt_add_apply _ _ (fun _ => (0 : EReal)) (meanTerm m c) (8 * (t.val / 8)) 7
      (fun h i => mean_reset_apply m c _ h i) (fun n h acc i _ _ => mean_step_apply m c n h acc i)
      (t.val % 8) (by omega) h' (ix2 p q)]
  rw [show t.val % 8 + 1 = 8 by omega]
  refine congrArg ((0 : EReal) + ·) (sum_runs_range _ _ ?_).symm
  intro s
  refine Finset.sum_congr rfl fun j _ => ?_
  show mu m c (ix2 (rowAt (8 * (t.val / 8) + s.val) p) (depthAt (8 * (t.val / 8) + s.val) j))
      * wm m c (ix2 (depthAt (8 * (t.val / 8) + s.val) j) (colAt (8 * (t.val / 8) + s.val) q))
    = mu m c (ix2 (rowAt t.val p) (inRun s j)) * wm m c (ix2 (inRun s j) (colAt t.val q))
  rw [depthAt_run, rowAt_run, colAt_run, rowAt_base, colAt_base]

/-- So the mean output tile of a run's last point holds the mean result at the global index. -/
theorem out6_apply (t : Fin cfg0.N) (h7 : t.val % 8 = 7) (p q : Fin 1024) :
    (outsAt0 m c t.val t.isLt).1 (ix2 p q)
      = meanOut (mu m c) (wm m c) (bm m c) (ix2 (rowAt t.val p) (colAt t.val q)) := by
  rw [Accum.out6_last m c t h7]
  refine (Payload.bias_mean (Accum.acc0 m c t.val t.isLt) (Accum.xb m c t.val t.isLt) p q).trans ?_
  rw [acc0_last m c t h7 p q, zero_add]
  exact congrArg (_ + ·) (Blocks.blk_b m c t q)

/-! ## The variance -/

/-- Point `n`'s partial product for the variance, at tile entry `i`. -/
def varTerm (n : ℕ) (i : S1024x1024.Idx) : EReal :=
  ∑ j : Fin 512, (mu m c (ix2 (rowAt n (i 0)) (depthAt n j)) * mu m c (ix2 (rowAt n (i 0)) (depthAt n j)))
    * sp (ws m c (ix1 (flat (depthAt n j) (colAt n (i 1)))))

theorem var_step_apply (n : ℕ) (h : n < cfg0.N) (acc : Vec Ideal S1024x1024 .f32) (i : S1024x1024.Idx) :
    k0_pay1 (k0_pay7 (Accum.xws m c n h) acc (Accum.xsq m c n h)) i = acc i + varTerm m c n i := by
  obtain ⟨p, q, rfl⟩ : ∃ (p q : Fin 1024), i = ix2 p q := ⟨i 0, i 1, eq_ix2 i⟩
  refine (Payload.var_step (Accum.xws m c n h) acc (Accum.xsq m c n h) p q).trans ?_
  refine congrArg (acc (ix2 p q) + ·) (Finset.sum_congr rfl fun j _ => ?_)
  exact congrArg₂ (· * ·) (Blocks.blk_musq m c ⟨n, h⟩ p j) (congrArg sp (Blocks.blk_ws m c ⟨n, h⟩ j q))

theorem var_reset_apply (n : ℕ) (h : n < cfg0.N) (i : S1024x1024.Idx) :
    k0_pay1 (k0_pay7 (Accum.xws m c n h) (k0_pay5 (F := Ideal)) (Accum.xsq m c n h)) i = 0 + varTerm m c n i := by
  refine (var_step_apply m c n h (k0_pay5 (F := Ideal)) i).trans ?_
  rw [Payload.reset_var]

theorem acc1_last (t : Fin cfg0.N) (h7 : t.val % 8 = 7) (p q : Fin 1024) :
    Accum.acc1 m c t.val t.isLt (ix2 p q)
      = 0 + ∑ k : Fin 4096, (mu m c (ix2 (rowAt t.val p) k) * mu m c (ix2 (rowAt t.val p) k))
          * sp (ws m c (ix1 (flat k (colAt t.val q)))) := by
  have hN : cfg0.N = 128 := N_0
  have ht := t.isLt
  have h' : 8 * (t.val / 8) + t.val % 8 < cfg0.N := by omega
  rw [Pipeline.eq_accAt_of_mod (Accum.acc1 m c) 8
      (fun n h => k0_pay1 (k0_pay7 (Accum.xws m c n h) (k0_pay5 (F := Ideal)) (Accum.xsq m c n h)))
      (fun n h acc => k0_pay1 (k0_pay7 (Accum.xws m c n h) acc (Accum.xsq m c n h)))
      (fun n h h0 => Accum.acc1_reset m c n h h0)
      (fun n h hne => Accum.acc1_step m c n h hne) (by decide) t.val t.isLt h']
  rw [Pipeline.accAt_add_apply _ _ (fun _ => (0 : EReal)) (varTerm m c) (8 * (t.val / 8)) 7
      (fun h i => var_reset_apply m c _ h i) (fun n h acc i _ _ => var_step_apply m c n h acc i)
      (t.val % 8) (by omega) h' (ix2 p q)]
  rw [show t.val % 8 + 1 = 8 by omega]
  refine congrArg ((0 : EReal) + ·) (sum_runs_range _ _ ?_).symm
  intro s
  refine Finset.sum_congr rfl fun j _ => ?_
  show (mu m c (ix2 (rowAt (8 * (t.val / 8) + s.val) p) (depthAt (8 * (t.val / 8) + s.val) j))
        * mu m c (ix2 (rowAt (8 * (t.val / 8) + s.val) p) (depthAt (8 * (t.val / 8) + s.val) j)))
      * sp (ws m c (ix1 (flat (depthAt (8 * (t.val / 8) + s.val) j) (colAt (8 * (t.val / 8) + s.val) q))))
    = (mu m c (ix2 (rowAt t.val p) (inRun s j)) * mu m c (ix2 (rowAt t.val p) (inRun s j)))
      * sp (ws m c (ix1 (flat (inRun s j) (colAt t.val q))))
  rw [depthAt_run, rowAt_run, colAt_run, rowAt_base, colAt_base]

theorem out7_apply (t : Fin cfg0.N) (h7 : t.val % 8 = 7) (p q : Fin 1024) :
    (outsAt0 m c t.val t.isLt).2.1 (ix2 p q)
      = varOut (mu m c) (ws m c) (bs m c) (ix2 (rowAt t.val p) (colAt t.val q)) := by
  rw [Accum.out7_last m c t h7]
  refine (Payload.bias_var (Accum.acc1 m c t.val t.isLt) (Accum.xbs m c t.val t.isLt) p q).trans ?_
  rw [acc1_last m c t h7 p q, zero_add]
  exact congrArg (_ + ·) (Blocks.blk_bs m c t q)

end Cert.KernelIdeal.Fold

end
-- ==== Proof.Tail.lean ====
/-
  The scalar result: the regulariser both programs compute on the host from the weight means `w` and the flat
  weight parameter `ws`,

      -1/2 · ( ∑ₙ ( 4096 · log (softplus wsₙ) − ∑ |w| − 4096 · softplus wsₙ ) ) / 16777216 ,

  as ONE term of the host operations (`klTerm`). The kernel computes it after its region from the arguments alone:
  no line of the host tail reads an array the region writes, so the tail sees the arguments as launched.
-/
import proofs.«138907_j841813590058_1_alg».proof.Proof.Gen.KernelIdeal.Frame
import Idealize.ShloMosaic.Lib.StableHlo.Run

set_option maxRecDepth 16384

noncomputable section

open Idealize.ShloMosaic Idealize.ShloMosaic.TcCoe Idealize.SL.Sem

namespace Cert.KernelIdeal.Tail

open Cert.KernelIdeal Cert.KernelIdeal.Gen

variable {F : FTy → Type} [FloatOps F]

/-- The host's softplus of the flat parameter vector: `x ≠ x ? x + 0 : max x 0 + log1p (exp (-|x - 0|))`. -/
def softplusFlat (ws : FVec F S16777216 .f32) : FVec F S16777216 .f32 :=
  select (cmpf .une (subf ws (broadcastInDim S16777216 ![] Gen.bcast_S_S16777216 (constant S_ .f32 0x00000000#32))) (subf ws (broadcastInDim S16777216 ![] Gen.bcast_S_S16777216 (constant S_ .f32 0x00000000#32))))
    (addf ws (broadcastInDim S16777216 ![] Gen.bcast_S_S16777216 (constant S_ .f32 0x00000000#32)))
    (addf (maximumf ws (broadcastInDim S16777216 ![] Gen.bcast_S_S16777216 (constant S_ .f32 0x00000000#32))) (Host.log1p (Host.exp (Host.negf (Host.absf (subf ws (broadcastInDim S16777216 ![] Gen.bcast_S_S16777216 (constant S_ .f32 0x00000000#32))))))))

/-- The regulariser, as the host operations compose. -/
def klTerm (w : FVec F S4096x4096 .f32) (ws : FVec F S16777216 .f32) : FVec F S_ .f32 :=
  mulf (constant S_ .f32 0xBF000000#32)
    (Host.divf
      (Host.reduceAdd
        (subf
          (subf (mulf (broadcastInDim S16777216 ![] Gen.bcast_S_S16777216 (constant S_ .f32 0x45800000#32)) (Host.log (softplusFlat ws)))
            (broadcastInDim S16777216 ![] Gen.bcast_S_S16777216
              (Host.reduceAdd (Host.absf w) (constant S_ .f32 0x00000000#32) Gen.reducesTo_S4096x4096_S_d0_1 Gen.h_S_)))
          (mulf (broadcastInDim S16777216 ![] Gen.bcast_S_S16777216 (constant S_ .f32 0x45800000#32)) (softplusFlat ws)))
        (constant S_ .f32 0x00000000#32) Gen.reducesTo_S16777216_S_d0 Gen.h_S_)
      (constant S_ .f32 0x4B800000#32))

variable (m : (ℓ : Loc nD τ sig) → Buf (Elt F) ℓ)

/-- What the host tail finds when it starts: the region's arrays as the region left them, every other buffer as
    the region found it. -/
abbrev exitVal (c : Dev nD) : Valuation τ sig (Elt F) :=
  Pipeline.withArrays (cfgs 0).spec c (V0 m c) fun w => (dats m 0 c).arrAt w (cfgs 0).N

set_option maxHeartbeats 8000000 in
/-- The tail's last line holds the regulariser of what the tail finds at the two arguments. -/
theorem tail_kl_exit (c : Dev nD) :
    Pipeline.afterTail₀ cfgs (dats m) 0 (V0 m) [hostOps1, hostOps1_1] c main_v22
      = klTerm (exitVal m c (Proc.devRef .tc main_arg2)) (exitVal m c (Proc.devRef .tc main_arg3)) := by
  unfold Pipeline.afterTail₀
  simp only [hostOps1, hostOps1_1, List.flatten_cons, List.flatten_nil, List.append_nil, List.cons_append, List.nil_append]
  after_results_simp <;> rfl

/-- No window of the region stages an argument's own array, so the tail finds the arguments as launched. -/
theorem exit_arg2 (c : Dev nD) : exitVal m c (Proc.devRef .tc main_arg2) = m ((c : Thread nD τ).loc main_arg2) := by
  exact (Pipeline.withArrays_of_ne _ c (V0 m c) _ main_arg2 (by exact (by decide : ∀ w, Pipeline.arrRef spec0 w ≠ main_arg2))).trans
    (V_main_arg2 m c)

theorem exit_arg3 (c : Dev nD) : exitVal m c (Proc.devRef .tc main_arg3) = m ((c : Thread nD τ).loc main_arg3) := by
  exact (Pipeline.withArrays_of_ne _ c (V0 m c) _ main_arg3 (by exact (by decide : ∀ w, Pipeline.arrRef spec0 w ≠ main_arg3))).trans
    (V_main_arg3 m c)

/-- After the host tail the scalar result holds the regulariser of the arguments as launched. -/
theorem tail_kl (c : Dev nD) :
    Pipeline.afterTail₀ cfgs (dats m) 0 (V0 m) [hostOps1, hostOps1_1] c main_v22
      = klTerm (m ((c : Thread nD τ).loc main_arg2)) (m ((c : Thread nD τ).loc main_arg3)) := by
  rw [tail_kl_exit, exit_arg2, exit_arg3]

end Cert.KernelIdeal.Tail

end
-- ==== Proof.Final.lean ====
/-
  The kernel's run, read: what the three results hold when it ends.

  Each result matrix is written back tile by tile, the tile of (row block, column block) at the last point of
  that tile's run of 8; what is written is the corresponding tile of ONE whole-array function (`meanOut`,
  `varOut` of the arguments: the fold), and every entry of the matrix lies in exactly such a tile. So the matrices
  end holding those functions. The scalar result is the host tail's regulariser of the arguments.
-/
import proofs.«138907_j841813590058_1_alg».proof.Proof.Gen.KernelIdeal.Frame
import proofs.«138907_j841813590058_1_alg».proof.Proof.Fold
import proofs.«138907_j841813590058_1_alg».proof.Proof.Blocks
import proofs.«138907_j841813590058_1_alg».proof.Proof.Tail
import proofs.«138907_j841813590058_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.BayesLin

variable (m : (ℓ : Loc nD τ sig) → Buf (Elt Ideal) ℓ) (ρ : Dev nD → PrngReg)

/-- The mean result and the variance result, as contents of their arrays. -/
abbrev meanRes (c : Dev nD) : Buf (Elt Ideal) ((c : Thread nD τ).loc main_v8_0) :=
  meanOut (Fold.mu m c) (Fold.wm m c) (Fold.bm m c)
abbrev varRes (c : Dev nD) : Buf (Elt Ideal) ((c : Thread nD τ).loc main_v8_1) :=
  varOut (Fold.mu m c) (Fold.ws m c) (Fold.bs m c)

/-- What a run's last point writes back to the mean result is that point's tile of `meanRes`. -/
theorem flushed6 (c : Dev nD) (t : Fin cfg0.N) (hf : (cfg0.win 6).flush t = true) :
    (dats m 0 c).flushed 6 t = ((cfg0.win 6).blk t).view.read (Elt Ideal) (meanRes m c) := by
  have h7 : t.val % 8 = 7 := (flush0_6 t).mp hf
  show (cfg0.win 6).cut (grid0.coords t) ((dats m 0 c).after 6 t) = _
  rw [after0_6]
  funext y
  obtain ⟨p, q, rfl⟩ : ∃ (p q : Fin 1024), y = ix2 p q := ⟨y 0, y 1, eq_ix2 y⟩
  rw [View.read_apply]
  show (outsAt0 m c t.val t.isLt).1 (ix2 p q) = meanRes m c (((cfg0.win 6).blk t).view.emb (ix2 p q))
  rw [Blocks.emb6 t p q]
  exact Fold.out6_apply m c t h7 p q

theorem flushed7 (c : Dev nD) (t : Fin cfg0.N) (hf : (cfg0.win 7).flush t = true) :
    (dats m 0 c).flushed 7 t = ((cfg0.win 7).blk t).view.read (Elt Ideal) (varRes m c) := by
  have h7 : t.val % 8 = 7 := (flush0_7 t).mp hf
  show (cfg0.win 7).cut (grid0.coords t) ((dats m 0 c).after 7 t) = _
  rw [after0_7]
  funext y
  obtain ⟨p, q, rfl⟩ : ∃ (p q : Fin 1024), y = ix2 p q := ⟨y 0, y 1, eq_ix2 y⟩
  rw [View.read_apply]
  show (outsAt0 m c t.val t.isLt).2.1 (ix2 p q) = varRes m c (((cfg0.win 7).blk t).view.emb (ix2 p q))
  rw [Blocks.emb7 t p q]
  exact Fold.out7_apply m c t h7 p q

/-- The last point of the run of the tile that holds entry `i`: row block `i₀ / 1024`, column block `i₁ / 1024`,
    depth coordinate 7. -/
def lastPoint (i : S4096x4096.Idx) : Fin cfg0.N :=
  ⟨32 * ((i 0).val / 1024) + 8 * ((i 1).val / 1024) + 7, by
    have h0 : (i 0).val < 4096 := (i 0).isLt
    have h1 : (i 1).val < 4096 := (i 1).isLt
    have hN : cfg0.N = 128 := N_0
    omega⟩

theorem lastPoint_val (i : S4096x4096.Idx) : (lastPoint i).val = 32 * ((i 0).val / 1024) + 8 * ((i 1).val / 1024) + 7 := rfl

/-- Every entry of the mean result lies in the tile written back at that point. -/
theorem cover6 (i : S4096x4096.Idx) :
    ∃ t : Fin cfg0.N, (cfg0.win 6).flush t = true ∧ i ∈ ((cfg0.win 6).blk t).view.set := by
  have h0 : (i 0).val < 4096 := (i 0).isLt
  have h1 : (i 1).val < 4096 := (i 1).isLt
  have hv := lastPoint_val i
  refine ⟨lastPoint i, (flush0_6 (lastPoint i)).mpr (by rw [hv]; omega), ?_⟩
  show i ∈ ((View.whole main_v8_0).slice (win0_6.rect (lastPoint i))).set
  rw [View.set_slice_whole, Rect.mem_set_unit]
  intro a
  match a with
  | ⟨0, _⟩ =>
    show win0_6.index (lastPoint i) 0 * 1024 ≤ (i 0).val ∧ (i 0).val < win0_6.index (lastPoint i) 0 * 1024 + 1024
    rw [(Blocks.idx6 (lastPoint i)).1, hv]; omega
  | ⟨1, _⟩ =>
    show win0_6.index (lastPoint i) 1 * 1024 ≤ (i 1).val ∧ (i 1).val < win0_6.index (lastPoint i) 1 * 1024 + 1024
    rw [(Blocks.idx6 (lastPoint i)).2, hv]; omega

theorem cover7 (i : S4096x4096.Idx) :
    ∃ t : Fin cfg0.N, (cfg0.win 7).flush t = true ∧ i ∈ ((cfg0.win 7).blk t).view.set := by
  have h0 : (i 0).val < 4096 := (i 0).isLt
  have h1 : (i 1).val < 4096 := (i 1).isLt
  have hv := lastPoint_val i
  refine ⟨lastPoint i, (flush0_7 (lastPoint i)).mpr (by rw [hv]; omega), ?_⟩
  show i ∈ ((View.whole main_v8_1).slice (win0_7.rect (lastPoint i))).set
  rw [View.set_slice_whole, Rect.mem_set_unit]
  intro a
  match a with
  | ⟨0, _⟩ =>
    show win0_7.index (lastPoint i) 0 * 1024 ≤ (i 0).val ∧ (i 0).val < win0_7.index (lastPoint i) 0 * 1024 + 1024
    rw [(Blocks.idx7 (lastPoint i)).1, hv]; omega
  | ⟨1, _⟩ =>
    show win0_7.index (lastPoint i) 1 * 1024 ≤ (i 1).val ∧ (i 1).val < win0_7.index (lastPoint i) 1 * 1024 + 1024
    rw [(Blocks.idx7 (lastPoint i)).2, hv]; omega

/-- So the two result matrices end holding the mean result and the variance result. -/
theorem final6 (c : Dev nD) : (dats m 0 c).arrAt 6 cfg0.N = meanRes m c :=
  (dats m 0 c).arrAt_eq_of_cover 6 (meanRes m c) (flushed6 m c) cover6

theorem final7 (c : Dev nD) : (dats m 0 c).arrAt 7 cfg0.N = varRes m c :=
  (dats m 0 c).arrAt_eq_of_cover 7 (varRes m c) (flushed7 m c) cover7

/-- THE RUN, READ: every weakly fair execution ends with the three results at the mean result, the variance
    result and the regulariser of the arguments, and the arguments unchanged. -/
theorem run : θ_run defs (onTc (τ := τ) (main (F := Ideal))) ⟨m, fun _ => 0, ρ⟩ fun r => ∀ c : Dev nD,
      r.2.mem ((c.tc : Thread nD τ).loc main_v8_0) = meanRes m c
      ∧ r.2.mem ((c.tc : Thread nD τ).loc main_v8_1) = varRes m c
      ∧ r.2.mem ((c.tc : Thread nD τ).loc main_v22)
          = Tail.klTerm (F := Ideal) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).1 6).trans (final6 m c),
     ((h c).1 7).trans (final7 m c),
     ((h c).2 main_v22 (Pipeline.mem_restRefs_of main_v22 (by decide) (by decide))).trans (Tail.tail_kl m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.Final

end
-- ==== Proof.RefValue.lean ====
/-
  The reference's two results are the specification.

  Read one operation at a time, the host program's first result at (r, o) is the sum over k of the input mean
  at (r, k) times the weight mean at (k, o), plus the bias mean at o, the bias being stretched first to a row
  and then down every row: this is `meanOut`.

  Its second result at (r, o) is the sum over k of the squared input mean at (r, k) times entry (k, o) of a
  4096 × 4096 matrix, plus an element of a vector stretched the same way. The matrix is softplus of the flat
  parameter vector reshaped row-major, so its entry (k, o) is softplus of the element at position 4096 k + o;
  the vector is softplus of the bias parameter. Softplus being applied element by element, it commutes with
  the reshape and with the stretching, and the result is `varOut`.

  The only work is bookkeeping of positions: each layout operation reads its operand at a position computed
  from the result's, and those composed positions are the ones the specification names.
-/
import proofs.«138907_j841813590058_1_alg».proof.Proof.Gen.ReferenceIdeal.Read
import proofs.«138907_j841813590058_1_alg».proof.Proof.Spec
import proofs.«138907_j841813590058_1_alg».proof.Proof.Softplus
import Idealize.ShloMosaic.Lib.ValueIdx

noncomputable section

open Idealize.ShloMosaic Idealize.ShloMosaic.ValueIdx

namespace Cert.BayesLin.Ref

open Cert.ReferenceIdeal Cert.ReferenceIdeal.Read

/-! ## Positions -/

/-- The first product reads its left operand along row `p`, -/
theorem left_mean (p q : Fin 4096) : lidx_main_v0 (ix2 p q) = fun k => ix2 p k := by
  funext k a
  match a with
  | ⟨0, _⟩ => rfl
  | ⟨1, _⟩ => rfl

/-- and its right operand down column `q`. -/
theorem right_mean (p q : Fin 4096) : ridx_main_v0 (ix2 p q) = fun k => ix2 k q := by
  funext k a
  match a with
  | ⟨0, _⟩ => rfl
  | ⟨1, _⟩ => rfl

/-- The bias mean, stretched to a row and then to the matrix, is read at the column. -/
theorem bias_mean (p q : Fin 4096) : idx_main_v1 (idx_main_v2 (ix2 p q)) = ix1 q := by
  funext a
  match a with
  | ⟨0, _⟩ => rfl

/-- The second product reads its left operand along row `p`, -/
theorem left_var (p q : Fin 4096) : lidx_main_v7 (ix2 p q) = fun k => ix2 p k := by
  funext k a
  match a with
  | ⟨0, _⟩ => rfl
  | ⟨1, _⟩ => rfl

/-- and its right operand down column `q`. -/
theorem right_var (p q : Fin 4096) : ridx_main_v7 (ix2 p q) = fun k => ix2 k q := by
  funext k a
  match a with
  | ⟨0, _⟩ => rfl
  | ⟨1, _⟩ => rfl

/-- The softplus of the bias parameter, stretched the same way, is read at the column. -/
theorem bias_var (p q : Fin 4096) : idx_main_v9 (idx_main_v10 (ix2 p q)) = ix1 q := by
  funext a
  match a with
  | ⟨0, _⟩ => rfl

/-- Entry `(k, o)` of the reshaped matrix is the flat vector's element at row-major position `4096 k + o`. -/
theorem reshape_at (k o : Fin 4096) : idx_main_v5 (ix2 k o) = ix1 (flat k o) := by
  funext a
  match a with
  | ⟨0, _⟩ =>
    apply Fin.ext
    show k.val * 4096 + o.val = 4096 * k.val + o.val
    omega

/-! ## The two softplus calls -/

/-- The call on the flat parameter vector computes softplus of each element. -/
theorem softplus_flat (x3 : (⟨S16777216, .f32⟩ : BufTy).Contents (Elt Ideal)) (j : S16777216.Idx) :
    val_main_v4 (F := Ideal) x3 j = sp (x3 j) :=
  softplus_host_apply (s := S16777216) _ x3 j

/-- The call on the bias parameter computes softplus of each element. -/
theorem softplus_bias (x5 : (⟨S4096, .f32⟩ : BufTy).Contents (Elt Ideal)) (j : S4096.Idx) :
    val_main_v8 (F := Ideal) x5 j = sp (x5 j) :=
  softplus_host_apply (s := S4096) _ x5 j

/-! ## The results -/

/-- The reference's first result is the mean output. -/
theorem mean_eq (x0 x2 : (⟨S4096x4096, .f32⟩ : BufTy).Contents (Elt Ideal))
    (x4 : (⟨S4096, .f32⟩ : BufTy).Contents (Elt Ideal)) :
    val_main_v3 (F := Ideal) x0 x2 x4 = meanOut x0 x2 x4 := by
  funext i
  obtain ⟨p, q, rfl⟩ : ∃ (p : Fin 4096) (q : Fin 4096), i = ix2 p q := ⟨i 0, i 1, eq_ix2 i⟩
  rw [val_main_v3_apply, val_main_v0_apply, val_main_v2_apply, val_main_v1_apply,
    left_mean, right_mean, bias_mean]
  rfl

/-- The reference's second result is the variance output. -/
theorem var_eq (x0 : (⟨S4096x4096, .f32⟩ : BufTy).Contents (Elt Ideal))
    (x3 : (⟨S16777216, .f32⟩ : BufTy).Contents (Elt Ideal))
    (x5 : (⟨S4096, .f32⟩ : BufTy).Contents (Elt Ideal)) :
    val_main_v11 (F := Ideal) x0 x3 x5 = varOut x0 x3 x5 := by
  funext i
  obtain ⟨p, q, rfl⟩ : ∃ (p : Fin 4096) (q : Fin 4096), i = ix2 p q := ⟨i 0, i 1, eq_ix2 i⟩
  rw [val_main_v11_apply, val_main_v7_apply, val_main_v10_apply, val_main_v9_apply,
    left_var, right_var, bias_var, softplus_bias]
  show (∑ k : Fin 4096, val_main_v6 (F := Ideal) x0 (ix2 p k) * val_main_v5 (F := Ideal) x3 (ix2 k q))
      + sp (x5 (ix1 q))
    = (∑ k : Fin 4096, (x0 (ix2 p k) * x0 (ix2 p k)) * sp (x3 (ix1 (flat k q)))) + sp (x5 (ix1 q))
  congr 1
  refine Finset.sum_congr rfl fun k _ => ?_
  rw [val_main_v6_apply, val_main_v5_apply, reshape_at, softplus_flat]
  rfl

end Cert.BayesLin.Ref

end
-- ==== Proof.lean ====
/-
  A Bayesian linear layer that propagates means and variances: from input means `mu`, weight means `w`, a flat
  weight parameter `ws` and two bias vectors it returns

    the mean      mu · w + b                                          (4096 × 4096),
    the variance  (mu ∘ mu) · softplus(ws as a 4096 × 4096 matrix) + softplus(bs),
    and a scalar regulariser of `w` and `ws`.

  The kernel computes the two products tile by tile on a 4 × 4 × 8 grid, accumulating each 1024 × 1024 tile over 8
  depth runs of 512 in a carried accumulator (zeroed at the first run, the bias added and the tile stored at the
  last), with the inputs converted to a narrower float format on the way; the reference computes each product as
  one contraction over 4096. Over the extended reals a change of format is the identity and addition is commutative
  and associative, so the 8 partial sums of 512 terms are the one sum of 4096 (no finiteness is needed, and the
  precondition is never opened); softplus is spelt the same way on both sides up to `0 - y = -y`; and the scalar is
  computed by the same host operations from the same arguments in both programs.

  The frames are the generated ones (the reference's is its generated run with the results dropped); the ideal pass
  rewrote nothing, so `preserves` is trivial.
-/
import proofs.«138907_j841813590058_1_alg».proof.Defs
import proofs.«138907_j841813590058_1_alg».proof.Proof.Gen.Kernel
import proofs.«138907_j841813590058_1_alg».proof.Proof.Gen.Kernel.Frame
import proofs.«138907_j841813590058_1_alg».proof.Proof.Gen.KernelIdeal
import proofs.«138907_j841813590058_1_alg».proof.Proof.Gen.KernelIdeal.Frame
import proofs.«138907_j841813590058_1_alg».proof.Proof.Gen.ReferenceIdeal
import proofs.«138907_j841813590058_1_alg».proof.Proof.Gen.ReferenceIdeal.Run
import proofs.«138907_j841813590058_1_alg».proof.Proof.Gen.ReferenceIdeal.Read
import proofs.«138907_j841813590058_1_alg».proof.Proof.Gen.Pre_finite_inputs
import proofs.«138907_j841813590058_1_alg».proof.Proof.Final
import proofs.«138907_j841813590058_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run ends with its arguments unchanged: its generated run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the mean result, the variance result and the regulariser of the arguments: the
    kernel's run read through its fold, the reference's run read one operation at a time; the arguments agree. -/
theorem algebraic : Cert.algebraic_KernelIdeal_ReferenceIdeal := by
  intro m ρ m' ρ' _ hagree
  refine ⟨fun c => Cert.KernelIdeal.Final.meanRes m c, fun c => Cert.KernelIdeal.Final.varRes m c,
    fun c => Cert.KernelIdeal.Tail.klTerm (F := Ideal)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Final.run m ρ, ?_⟩
  refine (θ_run Cert.ReferenceIdeal.defs _ _).mono (fun _ h c => ?_) (Cert.ReferenceIdeal.Value.run (F := Ideal) m' ρ')
  obtain ⟨h3, h11, h25, hargs⟩ := h c
  obtain ⟨a0, _, a2, a3, a4, a5⟩ := hagree c
  refine ⟨h3.trans ?_, h11.trans ?_, h25.trans ?_, hargs⟩
  · rw [a0, a2, a4]
    exact (Cert.ReferenceIdeal.Read.val_main_v3_eq _ _ _).trans (Cert.BayesLin.Ref.mean_eq _ _ _)
  · rw [a0, a3, a5]
    exact (Cert.ReferenceIdeal.Read.val_main_v11_eq _ _ _).trans (Cert.BayesLin.Ref.var_eq _ _ _)
  · rw [a2, a3]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
